-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S_ : Shape := ⟨0, ![]⟩
abbrev S1x640000 : Shape := ⟨2, ![1, 640000]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S640000x50 : S_.BroadcastsInDim S640000x50 (![] : Fin 0 → Fin S640000x50.rank)
  reducesTo_S640000x50_S_d0_1 : S640000x50.ReducesTo [0, 1] S_
  bcast_S_S128x50 : S_.BroadcastsInDim S128x50 (![] : Fin 0 → Fin S128x50.rank)
  reducesTo_S128x50_S_d0_1 : S128x50.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x640000_S1x640000_0_0 : S2x640000.Slices ![0, 0] S1x640000
  shapeCasts_S1x640000_S640000 : S1x640000.ShapeCasts S640000

variable [Facts]

def fn_part4 {F : FTy → Type} [FloatOps F] (main_v58 : IVec S_ 1) (main_v68 : IVec S_ 1) : IVec S_ 1 :=
  let main_v69 : IVec S_ 1 := andi main_v58 main_v68
  main_v69

def fn_part3 {F : FTy → Type} [FloatOps F] (main_arg1 : IVec S2x640000 32) (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : IVec S1x640000 32 := (extractStridedSlice S1x640000 ![0, 0] · slices_S2x640000_S1x640000_0_0) main_arg1
  let main_v60 : IVec S640000 32 := shapeCast S640000 main_v59 shapeCasts_S1x640000_S640000
  let main_c_22 : IVec S_ 32 := constantI S_ 32 4294927296#32
  let main_v61 : IVec S640000 32 := broadcastInDim S640000 ![] bcast_S_S640000 main_c_22
  let main_v62 : IVec S640000 1 := cmpi .sge main_v60 main_v61
  let main_v63 : IVec S1x640000 32 := (extractStridedSlice S1x640000 ![0, 0] · slices_S2x640000_S1x640000_0_0) main_arg1
  let main_v64 : IVec S640000 32 := shapeCast S640000 main_v63 shapeCasts_S1x640000_S640000
  let main_c_23 : IVec S_ 32 := constantI S_ 32 40000#32
  let main_v65 : IVec S640000 32 := broadcastInDim S640000 ![] bcast_S_S640000 main_c_23
  let main_v66 : IVec S640000 1 := cmpi .slt main_v64 main_v65
  let main_v67 : IVec S640000 1 := andi main_v62 main_v66
  let main_c_24 : IVec S_ 1 := constantI S_ 1 1#1
  let main_v68 : IVec S_ 1 := (fun x v => Host.reduce IntOp.andi x v reducesTo_S640000_S_d0 h_S_) main_v67 main_c_24
  fn_part4 (F := F) main_v58 main_v68

def fn_part2 {F : FTy → Type} [FloatOps F] (main_arg1 : IVec S2x640000 32) (main_arg8 : FVec F S128x128 .f32) (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_v48 main_v49 main_v50

def fn_part1 {F : FTy → Type} [FloatOps F] (main_arg1 : IVec S2x640000 32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_v13 : IVec S_ 1) (main_v16 : IVec S128x50 1) : IVec S_ 1 :=
  let main_c_5 : IVec S_ 1 := constantI S_ 1 1#1
  let main_v17 : IVec S_ 1 := (fun x v => Host.reduce IntOp.andi x v reducesTo_S128x50_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_v33

def fn {F : FTy → Type} [FloatOps F] (main_arg0 : FVec F S40000x128 .f32) (main_arg1 : IVec S2x640000 32) (main_arg2 : FVec F S640000 .f32) (main_arg3 : FVec F S640000x50 .f32) (main_arg4 : FVec F S128x50 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S640000x50 .f32 := Host.absf main_arg3
  let main_cst_2 : FVec F S_ .f32 := constant S_ .f32 0x7F800000#32
  let main_v10 : FVec F S640000x50 .f32 := broadcastInDim S640000x50 ![] bcast_S_S640000x50 main_cst_2
  let main_v11 : IVec S640000x50 1 := cmpf .olt main_v9 main_v10
  let main_c_3 : IVec S_ 1 := constantI S_ 1 1#1
  let main_v12 : IVec S_ 1 := (fun x v => Host.reduce IntOp.andi x v reducesTo_S640000x50_S_d0_1 h_S_) main_v11 main_c_3
  let main_v13 : IVec S_ 1 := andi main_v8 main_v12
  let main_v14 : FVec F S128x50 .f32 := Host.absf main_arg4
  let main_cst_4 : FVec F S_ .f32 := constant S_ .f32 0x7F800000#32
  let main_v15 : FVec F S128x50 .f32 := broadcastInDim S128x50 ![] bcast_S_S128x50 main_cst_4
  let main_v16 : IVec S128x50 1 := cmpf .olt main_v14 main_v15
  fn_part1 (F := F) main_arg1 main_arg5 main_arg6 main_arg7 main_arg8 main_arg9 main_arg10 main_arg11 main_arg12 main_v13 main_v16
-- ==== Kernel.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S1x640000 : Shape := ⟨2, ![1, 640000]⟩
abbrev S_ : Shape := ⟨0, ![]⟩
abbrev S640000x1 : Shape := ⟨2, ![640000, 1]⟩
abbrev S50x128 : Shape := ⟨2, ![50, 128]⟩
abbrev S1x128 : Shape := ⟨2, ![1, 128]⟩
abbrev S5000x128 : Shape := ⟨2, ![5000, 128]⟩
abbrev S640000x128 : Shape := ⟨2, ![640000, 128]⟩
abbrev S8000x50 : Shape := ⟨2, ![8000, 50]⟩
abbrev S8000x1 : Shape := ⟨2, ![8000, 1]⟩
abbrev S8000x128 : Shape := ⟨2, ![8000, 128]⟩
abbrev S1 : Shape := ⟨1, ![1]⟩
abbrev S1x1 : Shape := ⟨2, ![1, 1]⟩

abbrev nBuf : Space → Nat
  | .hbm => 68
  | .vmem => 23
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S640000, .f32⟩
  | .hbm, ⟨20, _⟩ => ⟨S640000, .f32⟩
  | .hbm, ⟨21, _⟩ => ⟨S_, .f32⟩
  | .hbm, ⟨22, _⟩ => ⟨S640000, .f32⟩
  | .hbm, ⟨23, _⟩ => ⟨S640000, .f32⟩
  | .hbm, ⟨24, _⟩ => ⟨S_, .f32⟩
  | .hbm, ⟨25, _⟩ => ⟨S640000, .f32⟩
  | .hbm, ⟨26, _⟩ => ⟨S640000, .f32⟩
  | .hbm, ⟨27, _⟩ => ⟨S640000x1, .f32⟩
  | .hbm, ⟨28, _⟩ => ⟨S50x128, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S40000x128, .f32⟩
  | .hbm, ⟨38, _⟩ => ⟨S640000x128, .f32⟩
  | .hbm, ⟨39, _⟩ => ⟨S_, .i32⟩
  | .hbm, ⟨40, _⟩ => ⟨S640000, .i32⟩
  | .hbm, ⟨41, _⟩ => ⟨S640000, .i1⟩
  | .hbm, ⟨42, _⟩ => ⟨S_, .i32⟩
  | .hbm, ⟨43, _⟩ => ⟨S640000, .i32⟩
  | .hbm, ⟨44, _⟩ => ⟨S640000, .i32⟩
  | .hbm, ⟨45, _⟩ => ⟨S640000, .i32⟩
  | .hbm, ⟨46, _⟩ => ⟨S640000x1, .i32⟩
  | .hbm, ⟨47, _⟩ => ⟨S1, .i32⟩
  | .hbm, ⟨48, _⟩ => ⟨S_, .i32⟩
  | .hbm, ⟨49, _⟩ => ⟨S640000x1, .i32⟩
  | .hbm, ⟨50, _⟩ => ⟨S640000x1, .i1⟩
  | .hbm, ⟨51, _⟩ => ⟨S1x1, .i32⟩
  | .hbm, ⟨52, _⟩ => ⟨S640000x1, .i32⟩
  | .hbm, ⟨53, _⟩ => ⟨S640000x1, .i1⟩
  | .hbm, ⟨54, _⟩ => ⟨S640000x1, .i1⟩
  | .hbm, ⟨55, _⟩ => ⟨S_, .i1⟩
  | .hbm, ⟨56, _⟩ => ⟨S640000, .i1⟩
  | .hbm, ⟨57, _⟩ => ⟨S640000x128, .f32⟩
  | .hbm, ⟨58, _⟩ => ⟨S640000x128, .i1⟩
  | .hbm, ⟨59, _⟩ => ⟨S_, .f32⟩
  | .hbm, ⟨60, _⟩ => ⟨S640000x128, .f32⟩
  | .hbm, ⟨61, _⟩ => ⟨S640000x128, .f32⟩
  | .hbm, ⟨62, _⟩ => ⟨S640000x128, .f32⟩
  | .hbm, ⟨63, _⟩ => ⟨S_, .f32⟩
  | .hbm, ⟨64, _⟩ => ⟨S40000x128, .f32⟩
  | .hbm, ⟨65, _⟩ => ⟨S640000x1, .i32⟩
  | .hbm, ⟨66, _⟩ => ⟨S40000x128, .f32⟩
  | .hbm, ⟨67, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x50, .f32⟩
  | .local _ .vmem, ⟨6, _⟩ => ⟨S8000x50, .f32⟩
  | .local _ .vmem, ⟨7, _⟩ => ⟨S8000x1, .f32⟩
  | .local _ .vmem, ⟨8, _⟩ => ⟨S8000x1, .f32⟩
  | .local _ .vmem, ⟨9, _⟩ => ⟨S50x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S8000x128, .f32⟩
  | .local _ .vmem, ⟨14, _⟩ => ⟨S8000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v23 : Ref sig .tc := ⟨.hbm, 61, rfl⟩
abbrev main_v24 : Ref sig .tc := ⟨.hbm, 62, rfl⟩
abbrev main_cst_2 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x50 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  shapeCasts_S640000_S640000x1 : S640000.ShapeCasts S640000x1
  transposes_S128x50_S50x128_1_0 : S128x50.Transposes [1, 0] S50x128
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8000x50_S8000x50_0_0 : ∀ a, (![0, 0] : Fin 2 → Nat) a + S8000x50.size a ≤ S8000x50.size a
  h_S8000x50 : 0 < S8000x50.numel
  inb_S50x128_S50x128_0_0 : ∀ a, (![0, 0] : Fin 2 → Nat) a + S50x128.size a ≤ S50x128.size a
  h_S50x128 : 0 < S50x128.numel
  shapeCasts_S50x128_S50x128 : S50x128.ShapeCasts S50x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  inb_S8000x128_S8000x128_0_0 : ∀ a, (![0, 0] : Fin 2 → Nat) a + S8000x128.size a ≤ S8000x128.size a
  h_S8000x128 : 0 < S8000x128.numel
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  dot_S8000x50_S50x128_S8000x128_1_0_0_1_n_n_wf : DotDims.WF S8000x50 S50x128 S8000x128 [1] [0] [0] [1] [] []
  dot_S8000x128_S128x128_S8000x128_1_0_0_1_n_n_wf : DotDims.WF S8000x128 S128x128 S8000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S40000x128.size a
  hwx0_2 : ∀ i : grid0.Coords, EltTy.bits .f32 = 32 ∨ (Rect.block (s := S40000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x50.size a ≤ S640000x50.size a
  hwx1_0 : ∀ i : grid1.Coords, EltTy.bits .f32 = 32 ∨ (Rect.block (s := S640000x50) S8000x50.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S640000x1.size a
  hwx1_1 : ∀ i : grid1.Coords, EltTy.bits .f32 = 32 ∨ (Rect.block (s := S640000x1) S8000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x128.size a ≤ S50x128.size a
  hwx1_2 : ∀ i : grid1.Coords, EltTy.bits .f32 = 32 ∨ (Rect.block (s := S50x128) S50x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x128.size a ≤ S640000x128.size a
  hwx1_6 : ∀ i : grid1.Coords, EltTy.bits .f32 = 32 ∨ (Rect.block (s := S640000x128) S8000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S40000x128.size a
  hwx2_5 : ∀ i : grid2.Coords, EltTy.bits .f32 = 32 ∨ (Rect.block (s := S40000x128) S5000x128.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x50_S50x128_S8000x128_1_0_0_1_n_n : DotDims S8000x50 S50x128 S8000x128 where
  lhsContracting := [1]
  rhsContracting := [0]
  lhsNonContracting := [0]
  rhsNonContracting := [1]
  lhsBatch := []
  rhsBatch := []
  wf := dot_S8000x50_S50x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S8000x50.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S50x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v18) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S8000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S640000x50 : Shape := ⟨2, ![640000, 50]⟩
abbrev S128x50 : Shape := ⟨2, ![128, 50]⟩
abbrev S128 : Shape := ⟨1, ![128]⟩
abbrev S128x128 : Shape := ⟨2, ![128, 128]⟩
abbrev S1x640000 : Shape := ⟨2, ![1, 640000]⟩
abbrev S_ : Shape := ⟨0, ![]⟩
abbrev S50x128 : Shape := ⟨2, ![50, 128]⟩
abbrev S640000x128 : Shape := ⟨2, ![640000, 128]⟩
abbrev S1x128 : Shape := ⟨2, ![1, 128]⟩
abbrev S640000x1 : Shape := ⟨2, ![640000, 1]⟩

abbrev nBuf : Space → Nat
  | .hbm => 103
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S640000x50, .f32⟩
  | .hbm, ⟨4, _⟩ => ⟨S128x50, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S_, .f32⟩
  | .hbm, ⟨18, _⟩ => ⟨S640000, .f32⟩
  | .hbm, ⟨19, _⟩ => ⟨S640000, .f32⟩
  | .hbm, ⟨20, _⟩ => ⟨S_, .f32⟩
  | .hbm, ⟨21, _⟩ => ⟨S640000, .f32⟩
  | .hbm, ⟨22, _⟩ => ⟨S640000, .f32⟩
  | .hbm, ⟨23, _⟩ => ⟨S640000, .f32⟩
  | .hbm, ⟨24, _⟩ => ⟨S_, .f32⟩
  | .hbm, ⟨25, _⟩ => ⟨S640000, .f32⟩
  | .hbm, ⟨26, _⟩ => ⟨S640000, .f32⟩
  | .hbm, ⟨27, _⟩ => ⟨S_, .f32⟩
  | .hbm, ⟨28, _⟩ => ⟨S640000, .f32⟩
  | .hbm, ⟨29, _⟩ => ⟨S640000, .f32⟩
  | .hbm, ⟨30, _⟩ => ⟨S50x128, .f32⟩
  | .hbm, ⟨31, _⟩ => ⟨S640000x128, .f32⟩
  | .hbm, ⟨32, _⟩ => ⟨S1x128, .f32⟩
  | .hbm, ⟨33, _⟩ => ⟨S640000x128, .f32⟩
  | .hbm, ⟨34, _⟩ => ⟨S640000x128, .f32⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S640000x128, .f32⟩
  | .hbm, ⟨40, _⟩ => ⟨S640000x128, .i1⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S640000x128, .f32⟩
  | .hbm, ⟨51, _⟩ => ⟨S640000x128, .f32⟩
  | .hbm, ⟨52, _⟩ => ⟨S128x128, .f32⟩
  | .hbm, ⟨53, _⟩ => ⟨S640000x128, .f32⟩
  | .hbm, ⟨54, _⟩ => ⟨S1x128, .f32⟩
  | .hbm, ⟨55, _⟩ => ⟨S640000x128, .f32⟩
  | .hbm, ⟨56, _⟩ => ⟨S640000x128, .f32⟩
  | .hbm, ⟨57, _⟩ => ⟨S640000x1, .f32⟩
  | .hbm, ⟨58, _⟩ => ⟨S640000x128, .f32⟩
  | .hbm, ⟨59, _⟩ => ⟨S640000x128, .f32⟩
  | .hbm, ⟨60, _⟩ => ⟨S128x128, .f32⟩
  | .hbm, ⟨61, _⟩ => ⟨S40000x128, .f32⟩
  | .hbm, ⟨62, _⟩ => ⟨S_, .i32⟩
  | .hbm, ⟨63, _⟩ => ⟨S640000, .i32⟩
  | .hbm, ⟨64, _⟩ => ⟨S640000, .i1⟩
  | .hbm, ⟨65, _⟩ => ⟨S_, .i32⟩
  | .hbm, ⟨66, _⟩ => ⟨S640000, .i32⟩
  | .hbm, ⟨67, _⟩ => ⟨S640000, .i32⟩
  | .hbm, ⟨68, _⟩ => ⟨S640000, .i32⟩
  | .hbm, ⟨69, _⟩ => ⟨S640000x1, .i32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S40000x128, .f32⟩
  | .hbm, ⟨74, _⟩ => ⟨S640000x1, .i32⟩
  | .hbm, ⟨75, _⟩ => ⟨S40000x128, .f32⟩
  | .hbm, ⟨76, _⟩ => ⟨S128x128, .f32⟩
  | .hbm, ⟨77, _⟩ => ⟨S40000x128, .f32⟩
  | .hbm, ⟨78, _⟩ => ⟨S1x128, .f32⟩
  | .hbm, ⟨79, _⟩ => ⟨S40000x128, .f32⟩
  | .hbm, ⟨80, _⟩ => ⟨S40000x128, .f32⟩
  | .hbm, ⟨81, _⟩ => ⟨S_, .f32⟩
  | .hbm, ⟨82, _⟩ => ⟨S40000x128, .f32⟩
  | .hbm, ⟨83, _⟩ => ⟨S40000x128, .f32⟩
  | .hbm, ⟨84, _⟩ => ⟨S40000x128, .f32⟩
  | .hbm, ⟨85, _⟩ => ⟨S40000x128, .f32⟩
  | .hbm, ⟨86, _⟩ => ⟨S40000x128, .i1⟩
  | .hbm, ⟨87, _⟩ => ⟨S40000x128, .f32⟩
  | .hbm, ⟨88, _⟩ => ⟨S40000x128, .f32⟩
  | .hbm, ⟨89, _⟩ => ⟨S40000x128, .f32⟩
  | .hbm, ⟨90, _⟩ => ⟨S40000x128, .f32⟩
  | .hbm, ⟨91, _⟩ => ⟨S40000x128, .f32⟩
  | .hbm, ⟨92, _⟩ => ⟨S40000x128, .f32⟩
  | .hbm, ⟨93, _⟩ => ⟨S40000x128, .f32⟩
  | .hbm, ⟨94, _⟩ => ⟨S40000x128, .f32⟩
  | .hbm, ⟨95, _⟩ => ⟨S_, .f32⟩
  | .hbm, ⟨96, _⟩ => ⟨S40000x128, .f32⟩
  | .hbm, ⟨97, _⟩ => ⟨S40000x128, .f32⟩
  | .hbm, ⟨98, _⟩ => ⟨S128x128, .f32⟩
  | .hbm, ⟨99, _⟩ => ⟨S40000x128, .f32⟩
  | .hbm, ⟨100, _⟩ => ⟨S1x128, .f32⟩
  | .hbm, ⟨101, _⟩ => ⟨S40000x128, .f32⟩
  | .hbm, ⟨102, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_v18 : Ref sig .tc := ⟨.hbm, 48, rfl⟩
abbrev main_cst_3 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c : Ref sig .tc := ⟨.hbm, 62, rfl⟩
abbrev main_v31 : Ref sig .tc := ⟨.hbm, 63, rfl⟩
abbrev main_v32 : Ref sig .tc := ⟨.hbm, 64, rfl⟩
abbrev main_c_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_5 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_v47 : Ref sig .tc := ⟨.hbm, 94, rfl⟩
abbrev main_cst_6 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  transposes_S128x50_S50x128_1_0 : S128x50.Transposes [1, 0] S50x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S128x128_S128x128_1_0 : S128x128.Transposes [1, 0] S128x128
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  bcast_S1x128_S40000x128_0_1 : S1x128.BroadcastsInDim S40000x128 (![0, 1] : Fin 2 → Fin S40000x128.rank)
  dot_S640000x50_S50x128_S640000x128_1_0_0_1_n_n_wf : DotDims.WF S640000x50 S50x128 S640000x128 [1] [0] [0] [1] [] []
  dot_S640000x128_S128x128_S640000x128_1_0_0_1_n_n_wf : DotDims.WF S640000x128 S128x128 S640000x128 [1] [0] [0] [1] [] []
  dot_S40000x128_S128x128_S40000x128_1_0_0_1_n_n_wf : DotDims.WF S40000x128 S128x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1

variable [Facts₀]

def dot_S640000x50_S50x128_S640000x128_1_0_0_1_n_n : DotDims S640000x50 S50x128 S640000x128 where
  lhsContracting := [1]
  rhsContracting := [0]
  lhsNonContracting := [0]
  rhsNonContracting := [1]
  lhsBatch := []
  rhsBatch := []
  wf := dot_S640000x50_S50x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf

class Facts : Prop extends Facts₀ where

variable [Facts]
-- ==== Proof.Spec.lean ====
/-
  The mathematics both programs compute, written once over the extended reals.

  A continuous-filter convolution block on a graph of 40000 nodes and 640000 edges, 128 features:
    h    = x · lin1ᵀ                                             (one dense layer on the nodes)
    W    = (ssp(ea · w1ᵀ + b1) · w2ᵀ + b2) ⊙ C                   (a two-layer filter network on the edges, times the
                                                                  cosine envelope C e = ½ (cos(ew e · π/10) + 1))
    agg  = Σ_{e : dst e = n} h[src e] ⊙ W[e]                     (gather, multiply, scatter-add: host operations both sides share)
    out  = ssp(agg · lin2ᵀ + b) · linᵀ + lb                      (two dense layers on the nodes)
  where ssp y = max(y, 0) + log(1 + e^{-|y|}) − ln 2 is the shifted softplus.
  The dense layers are stated in the form the kernel's windows hold them: weights input-major ([K, 128]), biases as one row
  ([1, 128]), the envelope as one column ([E, 1]).
-/
import Idealize.ShloMosaic.PureOps.Ideal
import Idealize.ShloMosaic.PureOps.Ideal.Laws
import Idealize.ShloMosaic.Lib.ValueIdx

noncomputable section

namespace Cert.CFConv

open Idealize.ShloMosaic Idealize.ShloMosaic.ValueIdx

/-- The word both programs carry for ln 2. -/
abbrev ln2w : EReal := Ideal.ofBits .f32 0x3F317218#32

/-- The shifted softplus on the extended reals: max(y, 0) + log(1 + e^{-|y|}) − ln 2, with |y| = max(y, −y). -/
def ssp (y : EReal) : EReal := max y 0 + Ideal.log1p (Ideal.exp (-(max y (-y)))) - ln2w

/-- The node layer: row r of `x` against column f of the input-major weights. -/
def nodeLin (x : (⟨2, ![40000, 128]⟩ : Shape).Idx → EReal) (wt : (⟨2, ![128, 128]⟩ : Shape).Idx → EReal) :
    (⟨2, ![40000, 128]⟩ : Shape).Idx → EReal :=
  fun i => ∑ k : Fin 128, x (ix2 (i 0) k) * wt (ix2 k (i 1))

/-- The edge filter before the envelope: two dense layers with the shifted softplus between, 50 → 128 → 128. -/
def edgeMlp (ea : (⟨2, ![640000, 50]⟩ : Shape).Idx → EReal) (w1t : (⟨2, ![50, 128]⟩ : Shape).Idx → EReal)
    (b1 : (⟨2, ![1, 128]⟩ : Shape).Idx → EReal) (w2t : (⟨2, ![128, 128]⟩ : Shape).Idx → EReal)
    (b2 : (⟨2, ![1, 128]⟩ : Shape).Idx → EReal) : (⟨2, ![640000, 128]⟩ : Shape).Idx → EReal :=
  fun i => (∑ j : Fin 128, ssp ((∑ k : Fin 50, ea (ix2 (i 0) k) * w1t (ix2 k j)) + b1 (ix2 0 j)) * w2t (ix2 j (i 1))) + b2 (ix2 0 (i 1))

/-- The edge filter: the filter network's row times that edge's envelope value. -/
def edgeFilter (ea : (⟨2, ![640000, 50]⟩ : Shape).Idx → EReal) (cenv : (⟨2, ![640000, 1]⟩ : Shape).Idx → EReal)
    (w1t : (⟨2, ![50, 128]⟩ : Shape).Idx → EReal) (b1 : (⟨2, ![1, 128]⟩ : Shape).Idx → EReal)
    (w2t : (⟨2, ![128, 128]⟩ : Shape).Idx → EReal) (b2 : (⟨2, ![1, 128]⟩ : Shape).Idx → EReal) :
    (⟨2, ![640000, 128]⟩ : Shape).Idx → EReal :=
  fun i => edgeMlp ea w1t b1 w2t b2 i * cenv (ix2 (i 0) 0)

/-- The node output: two dense layers with the shifted softplus between, 128 → 128 → 128. -/
def nodeMlp (a : (⟨2, ![40000, 128]⟩ : Shape).Idx → EReal) (w1t : (⟨2, ![128, 128]⟩ : Shape).Idx → EReal)
    (b1 : (⟨2, ![1, 128]⟩ : Shape).Idx → EReal) (w2t : (⟨2, ![128, 128]⟩ : Shape).Idx → EReal)
    (b2 : (⟨2, ![1, 128]⟩ : Shape).Idx → EReal) : (⟨2, ![40000, 128]⟩ : Shape).Idx → EReal :=
  fun i => (∑ j : Fin 128, ssp ((∑ k : Fin 128, a (ix2 (i 0) k) * w1t (ix2 k j)) + b1 (ix2 0 j)) * w2t (ix2 j (i 1))) + b2 (ix2 0 (i 1))

/-- The envelope of one edge length as the kernel spells it: the length times the word of π/10. -/
def envK (w : EReal) : EReal :=
  Ideal.ofBits .f32 0x3F000000#32 * (Ideal.cos (w * Ideal.ofBits .f32 0x3EA0D97C#32) + Ideal.ofBits .f32 0x3F800000#32)

/-- The envelope of one edge length as the reference spells it: the length times the word of π, divided by ten. -/
def envR (w : EReal) : EReal :=
  Ideal.ofBits .f32 0x3F000000#32 * (Ideal.cos (Ideal.div (w * Ideal.ofBits .f32 0x40490FDB#32) (Ideal.ofBits .f32 0x41200000#32)) + Ideal.ofBits .f32 0x3F800000#32)

/-- The softplus as the kernel body spells it on one element — the self-comparison that would catch a NaN is never true on
    the extended reals, so the select takes the branch max(y,0) + log1p(exp(0 − |y − 0|)) — is `ssp`. -/
theorem ssp_kernel_form (y : EReal) :
    FloatOps.subf (F := Ideal) (φ := .f32) (Scalar.select (FloatOps.cmpf (F := Ideal) (φ := .f32) .one (FloatOps.subf y (Ideal.ofBits .f32 0x00000000#32)) (FloatOps.subf y (Ideal.ofBits .f32 0x00000000#32)))
      (FloatOps.addf y (Ideal.ofBits .f32 0x00000000#32))
      (FloatOps.addf (FloatOps.maximumf y (Ideal.ofBits .f32 0x00000000#32)) (FloatOps.log1p (FloatOps.exp (FloatOps.subf (Ideal.ofBits .f32 0x00000000#32) (FloatOps.absf (FloatOps.subf y (Ideal.ofBits .f32 0x00000000#32))))))))
      (Ideal.ofBits .f32 0x3F317218#32) = ssp y := by
  simp only [Ideal.subf_def, Ideal.addf_def, Ideal.maximumf_def, Ideal.log1p_def, Ideal.exp_def, Ideal.cmpf_def, Ideal.absf_def,
    Ideal.ofBits_zero_f32, sub_zero, add_zero, zero_sub, Ideal.cmp, ne_eq, not_true_eq_false, decide_false, BitVec.ofBool_false, ssp]
  rfl

/-- The softplus as the host program spells it on one element (negate of the absolute value, the host's exp and log1p) is `ssp`. -/
theorem ssp_host_form (y : EReal) :
    FloatOps.subf (F := Ideal) (φ := .f32) (Scalar.select (FloatOps.cmpf (F := Ideal) (φ := .f32) .une (FloatOps.subf y (Ideal.ofBits .f32 0x00000000#32)) (FloatOps.subf y (Ideal.ofBits .f32 0x00000000#32)))
      (FloatOps.addf y (Ideal.ofBits .f32 0x00000000#32))
      (FloatOps.addf (FloatOps.maximumf y (Ideal.ofBits .f32 0x00000000#32)) (FloatOps.hostUnary .log1p (FloatOps.hostUnary .exp (FloatOps.hostNegf (FloatOps.hostAbsf (FloatOps.subf y (Ideal.ofBits .f32 0x00000000#32))))))))
      (Ideal.ofBits .f32 0x3F317218#32) = ssp y := by
  simp only [Ideal.subf_def, Ideal.addf_def, Ideal.maximumf_def, Ideal.hostUnary_log1p_def, Ideal.hostUnary_exp_def, Ideal.hostNegf_def, Ideal.hostAbsf_def, Ideal.negf_def, Ideal.cmpf_def, Ideal.absf_def,
    Ideal.ofBits_zero_f32, sub_zero, add_zero, Ideal.cmp, ne_eq, not_true_eq_false, decide_false, BitVec.ofBool_false, ssp]
  rfl

/-- A [128, K] weight matrix read input-major. -/
def tr128 (w : (⟨2, ![128, 128]⟩ : Shape).Idx → EReal) : (⟨2, ![128, 128]⟩ : Shape).Idx → EReal := fun j => w (ix2 (j 1) (j 0))
/-- The [128, 50] first filter weights read input-major. -/
def tr50 (w : (⟨2, ![128, 50]⟩ : Shape).Idx → EReal) : (⟨2, ![50, 128]⟩ : Shape).Idx → EReal := fun j => w (ix2 (j 1) (j 0))
/-- A bias vector as one row. -/
def row (b : (⟨1, ![128]⟩ : Shape).Idx → EReal) : (⟨2, ![1, 128]⟩ : Shape).Idx → EReal := fun j => b (ix1 (j 1))
/-- A per-edge vector as one column. -/
def col (v : (⟨1, ![640000]⟩ : Shape).Idx → EReal) : (⟨2, ![640000, 1]⟩ : Shape).Idx → EReal := fun j => v (ix1 (j 0))

end Cert.CFConv

end
-- ==== Proof.Region0.lean ====
/-
  The first launch (8 grid points, 5000 node rows each): its output array after the run is the node layer
  h = x · wt of the arrays the region finds, index by index — each point's block is the matrix product of that
  point's rows with the whole weight matrix, and the eight row blocks tile the 40000 rows.
-/
import proofs.«423022_j34797825032818_2_alg».proof.Proof.Gen.KernelIdeal.Frame
import proofs.«423022_j34797825032818_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The matrix product's operand indices

The product contracts the rows' second axis against the weights' first: at the output index (p, q) and the
contraction coordinate k the left operand is read at (p, k) and the right one at (k, q). -/

theorem lhs_prod_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_prod_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_prod_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_prod_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at row p, column q of its block: Σ_k x[p,k] · w[k,q] (the narrowing to bf16 is the identity
    on the extended reals, the accumulator is zero). -/
theorem pay_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  show FloatOps.matmul (F := Ideal) dot_S5000x128_S128x128_S5000x128_1_0_0_1_n_n none (truncf (F := Ideal) .bf16 x0 bitsLt_bf16_f32)
      (truncf (F := Ideal) .bf16 (shapeCast S128x128 x1 shapeCasts_S128x128_S128x128) bitsLt_bf16_f32)
      (constant (F := Ideal) S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_prod_0 _ _
    | ⟨1, _⟩ => exact (lhs_prod_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_prod_0 _ _).trans hk
    | ⟨1, _⟩ => exact rhs_prod_1 _ _)
  rw [el, er, truncf_apply, truncf_apply, shapeCast_self]

-- the buffer contents when the region is entered: every statement below holds at any such contents
variable (V : (c : Dev nD) → (b : Ref sig .tc) → Buf (Elt Ideal) ((c : Thread nD τ).loc b))

namespace Region0

/-! ## One point's block

At point t the rows' window and the output's window sit on row block t (5000 rows each, all 128 columns) and the
weights' window is the whole 128 × 128 matrix; so what point t writes back is rows 5000·t … 5000·t + 4999 of x · wt. -/

theorem origin_zero : (![0, 0] : Fin 2 → Nat) = fun _ => 0 := funext fun a => by fin_cases a <;> rfl

/-- The printed block-index maps over the grid: rows' and output's blocks move together down the rows, nothing moves
    along the columns, and the weights' block stays at the origin. -/
theorem blk_index : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the node layer of the arrays the region finds. -/
theorem flushed_eq (c : Dev nD) (t : Fin cfg0.N) :
    (dat0 (F := Ideal) V c).flushed 2 t
      = ((cfg0.win 2).blk t).view.read (Elt Ideal) (Cert.CFConv.nodeLin (V c main_arg0) (V c main_v14)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨e0, e1, e2, e3, e4, e5⟩ := blk_index t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
      = Cert.CFConv.nodeLin (V c main_arg0) (V c main_v14) (((cfg0.win 2).blk t).view.emb (ix2 p q))
  refine (pay_apply _ _ p q).trans ?_
  unfold Cert.CFConv.nodeLin
  refine Finset.sum_congr rfl fun k _ => ?_
  have hx : iblk0 V c 0 t (ix2 p k) = V c main_arg0 (ix2 (((cfg0.win 2).blk t).view.emb (ix2 p q) 0) k) := by
    show V c main_arg0 (((cfg0.win 0).blk t).view.emb (ix2 p k)) = _
    refine congrArg (V c main_arg0 : S40000x128.Idx → EReal) (funext fun a => Fin.ext ?_)
    match a with
    | ⟨0, _⟩ =>
      show win0_0.index t (0 : Fin 2) * 5000 + 1 * p.val = win0_2.index t (0 : Fin 2) * 5000 + 1 * p.val
      rw [e0, e4]
    | ⟨1, _⟩ =>
      show win0_0.index t (1 : Fin 2) * 128 + 1 * k.val = k.val
      rw [e1]; omega
  have hw : iblk0 V c 1 t (ix2 k q) = V c main_v14 (ix2 k (((cfg0.win 2).blk t).view.emb (ix2 p q) 1)) := by
    show V c main_v14 (((cfg0.win 1).blk t).view.emb (ix2 k q)) = _
    refine congrArg (V c main_v14 : S128x128.Idx → EReal) (funext fun a => Fin.ext ?_)
    match a with
    | ⟨0, _⟩ =>
      show win0_1.index t (0 : Fin 2) * 128 + 1 * k.val = k.val
      rw [e2]; omega
    | ⟨1, _⟩ =>
      show win0_1.index t (1 : Fin 2) * 128 + 1 * q.val = win0_2.index t (1 : Fin 2) * 128 + 1 * q.val
      rw [e3, e5]
  rw [hx, hw]

/-! ## The blocks tile the rows -/

/-- An index of the output array is in point t's block iff each coordinate is in the block's range on its axis. -/
theorem mem_blk (t : Fin cfg0.N) (i : S40000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v21).slice (win0_2.rect t)).set ↔ _
  rw [View.set_slice_whole, Rect.mem_set_unit]
  exact Iff.rfl

/-- Row r lies in the block of point r / 5000. -/
theorem cover (i : S40000x128.Idx) :
    ∃ t : Fin cfg0.N, (cfg0.win 2).flush t = true ∧ i ∈ ((cfg0.win 2).blk t).view.set := by
  have hi0 : (i 0).val < 40000 := idx2_lt0 i
  have hi1 : (i 1).val < 128 := idx2_lt1 i
  have hN : cfg0.N = 8 := N_0
  refine ⟨⟨(i 0).val / 5000, by rw [hN]; omega⟩, flush0_2 _, ?_⟩
  rw [mem_blk]
  obtain ⟨e0, e1, e2, e3, e4, e5⟩ := blk_index ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

end Region0

open Region0 in
/-- The array the first launch leaves: row r, column f is Σ_k x[r,k] · wt[k,f]. -/
theorem region0_out (c : Dev nD) :
    (dat0 (F := Ideal) V c).arrAt 2 cfg0.N = Cert.CFConv.nodeLin (V c main_arg0) (V c main_v14) :=
  (dat0 (F := Ideal) V c).arrAt_eq_of_cover 2 _ (fun t _ => flushed_eq V c t) cover

end Cert.KernelIdeal.RegionValue

end
-- ==== Proof.Region1.lean ====
/-
  The second launch (80 grid points, 8000 edge rows each): its output array after the run is the edge filter
  W = (ssp(ea · w1t + b1) · w2t + b2) ⊙ C of the arrays the region finds, index by index — each point's block is
  that expression of the point's rows of `ea` and `C` with the whole weights, and the eighty row blocks tile the
  640000 rows.
-/
import proofs.«423022_j34797825032818_2_alg».proof.Proof.Gen.KernelIdeal.Frame
import proofs.«423022_j34797825032818_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the region is entered: every statement below holds at any such contents
variable (V : (c : Dev nD) → (b : Ref sig .tc) → Buf (Elt Ideal) ((c : Thread nD τ).loc b))

namespace Region1

/-! ## The two products of the body, read at an index -/

/-- The first product's left operand is read at the output's row. -/
theorem lhs_edge1_0 (i : S8000x128.Idx) (q : dot_S8000x50_S50x128_S8000x128_1_0_0_1_n_n.contr.Idx) :
    (dot_S8000x50_S50x128_S8000x128_1_0_0_1_n_n.lhsIdx i q 0).val = (i 0).val := by
  unfold DotDims.lhsIdx
  rw [dif_neg (show ¬(0 : Fin S8000x50.rank) ∈ dot_S8000x50_S50x128_S8000x128_1_0_0_1_n_n.lhsBatch by decide), dif_pos (show (0 : Fin S8000x50.rank) ∈ dot_S8000x50_S50x128_S8000x128_1_0_0_1_n_n.lhsNonContracting by decide)]
  rfl
/-- … and at the contraction index along its columns. -/
theorem lhs_edge1_1 (i : S8000x128.Idx) (q : dot_S8000x50_S50x128_S8000x128_1_0_0_1_n_n.contr.Idx) :
    (dot_S8000x50_S50x128_S8000x128_1_0_0_1_n_n.lhsIdx i q 1).val = (q ⟨0, by decide⟩).val :=
  dot_S8000x50_S50x128_S8000x128_1_0_0_1_n_n.lhsIdx_val_of_single rfl i q
/-- The first product's right operand is read at the contraction index along its rows. -/
theorem rhs_edge1_0 (i : S8000x128.Idx) (q : dot_S8000x50_S50x128_S8000x128_1_0_0_1_n_n.contr.Idx) :
    (dot_S8000x50_S50x128_S8000x128_1_0_0_1_n_n.rhsIdx i q 0).val = (q ⟨0, by decide⟩).val :=
  dot_S8000x50_S50x128_S8000x128_1_0_0_1_n_n.rhsIdx_val_of_single rfl i q
/-- … and at the output's column. -/
theorem rhs_edge1_1 (i : S8000x128.Idx) (q : dot_S8000x50_S50x128_S8000x128_1_0_0_1_n_n.contr.Idx) :
    (dot_S8000x50_S50x128_S8000x128_1_0_0_1_n_n.rhsIdx i q 1).val = (i 1).val := by
  unfold DotDims.rhsIdx
  rw [dif_neg (show ¬(1 : Fin S50x128.rank) ∈ dot_S8000x50_S50x128_S8000x128_1_0_0_1_n_n.rhsBatch by decide), dif_pos (show (1 : Fin S50x128.rank) ∈ dot_S8000x50_S50x128_S8000x128_1_0_0_1_n_n.rhsNonContracting by decide)]
  rfl

/-- The first product into the zero accumulator, at row `p` and column `q`: the row of the left operand against the column of the right. -/
theorem edge1_matmul_apply (a : FVec Ideal S8000x50 .bf16) (b : FVec Ideal S50x128 .bf16) (p : Fin 8000) (q : Fin 128) :
    matmul dot_S8000x50_S50x128_S8000x128_1_0_0_1_n_n none a b (constant (F := Ideal) S8000x128 .f32 0x00000000#32) (ix2 p q)
      = ∑ k : Fin 50, a (ix2 p k) * b (ix2 k q) := by
  simp only [matmul]
  rw [Ideal.matmul_constant_zero_apply, ← Equiv.sum_comp (ValueIdx.contrEquiv1 dot_S8000x50_S50x128_S8000x128_1_0_0_1_n_n 50 rfl rfl).symm]
  refine Finset.sum_congr rfl fun k _ => ?_
  have hk := ValueIdx.contrEquiv1_symm_val dot_S8000x50_S50x128_S8000x128_1_0_0_1_n_n 50 rfl rfl k
  have el : dot_S8000x50_S50x128_S8000x128_1_0_0_1_n_n.lhsIdx (ix2 p q) ((ValueIdx.contrEquiv1 dot_S8000x50_S50x128_S8000x128_1_0_0_1_n_n 50 rfl rfl).symm k) = ix2 p k := funext fun a => Fin.ext (by
    match a with
    | ⟨0, _⟩ => exact lhs_edge1_0 _ _
    | ⟨1, _⟩ => exact (lhs_edge1_1 _ _).trans hk)
  have er : dot_S8000x50_S50x128_S8000x128_1_0_0_1_n_n.rhsIdx (ix2 p q) ((ValueIdx.contrEquiv1 dot_S8000x50_S50x128_S8000x128_1_0_0_1_n_n 50 rfl rfl).symm k) = ix2 k q := funext fun a => Fin.ext (by
    match a with
    | ⟨0, _⟩ => exact (rhs_edge1_0 _ _).trans hk
    | ⟨1, _⟩ => exact rhs_edge1_1 _ _)
  rw [el, er]

/-- The second product's left operand is read at the output's row. -/
theorem lhs_edge2_0 (i : S8000x128.Idx) (q : dot_S8000x128_S128x128_S8000x128_1_0_0_1_n_n.contr.Idx) :
    (dot_S8000x128_S128x128_S8000x128_1_0_0_1_n_n.lhsIdx i q 0).val = (i 0).val := by
  unfold DotDims.lhsIdx
  rw [dif_neg (show ¬(0 : Fin S8000x128.rank) ∈ dot_S8000x128_S128x128_S8000x128_1_0_0_1_n_n.lhsBatch by decide), dif_pos (show (0 : Fin S8000x128.rank) ∈ dot_S8000x128_S128x128_S8000x128_1_0_0_1_n_n.lhsNonContracting by decide)]
  rfl
/-- … and at the contraction index along its columns. -/
theorem lhs_edge2_1 (i : S8000x128.Idx) (q : dot_S8000x128_S128x128_S8000x128_1_0_0_1_n_n.contr.Idx) :
    (dot_S8000x128_S128x128_S8000x128_1_0_0_1_n_n.lhsIdx i q 1).val = (q ⟨0, by decide⟩).val :=
  dot_S8000x128_S128x128_S8000x128_1_0_0_1_n_n.lhsIdx_val_of_single rfl i q
/-- The second product's right operand is read at the contraction index along its rows. -/
theorem rhs_edge2_0 (i : S8000x128.Idx) (q : dot_S8000x128_S128x128_S8000x128_1_0_0_1_n_n.contr.Idx) :
    (dot_S8000x128_S128x128_S8000x128_1_0_0_1_n_n.rhsIdx i q 0).val = (q ⟨0, by decide⟩).val :=
  dot_S8000x128_S128x128_S8000x128_1_0_0_1_n_n.rhsIdx_val_of_single rfl i q
/-- … and at the output's column. -/
theorem rhs_edge2_1 (i : S8000x128.Idx) (q : dot_S8000x128_S128x128_S8000x128_1_0_0_1_n_n.contr.Idx) :
    (dot_S8000x128_S128x128_S8000x128_1_0_0_1_n_n.rhsIdx i q 1).val = (i 1).val := by
  unfold DotDims.rhsIdx
  rw [dif_neg (show ¬(1 : Fin S128x128.rank) ∈ dot_S8000x128_S128x128_S8000x128_1_0_0_1_n_n.rhsBatch by decide), dif_pos (show (1 : Fin S128x128.rank) ∈ dot_S8000x128_S128x128_S8000x128_1_0_0_1_n_n.rhsNonContracting by decide)]
  rfl

/-- The second product into the zero accumulator, at row `p` and column `q`: the row of the left operand against the column of the right. -/
theorem edge2_matmul_apply (a : FVec Ideal S8000x128 .bf16) (b : FVec Ideal S128x128 .bf16) (p : Fin 8000) (q : Fin 128) :
    matmul dot_S8000x128_S128x128_S8000x128_1_0_0_1_n_n none a b (constant (F := Ideal) S8000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S8000x128_S128x128_S8000x128_1_0_0_1_n_n 128 rfl rfl).symm]
  refine Finset.sum_congr rfl fun k _ => ?_
  have hk := ValueIdx.contrEquiv1_symm_val dot_S8000x128_S128x128_S8000x128_1_0_0_1_n_n 128 rfl rfl k
  have el : dot_S8000x128_S128x128_S8000x128_1_0_0_1_n_n.lhsIdx (ix2 p q) ((ValueIdx.contrEquiv1 dot_S8000x128_S128x128_S8000x128_1_0_0_1_n_n 128 rfl rfl).symm k) = ix2 p k := funext fun a => Fin.ext (by
    match a with
    | ⟨0, _⟩ => exact lhs_edge2_0 _ _
    | ⟨1, _⟩ => exact (lhs_edge2_1 _ _).trans hk)
  have er : dot_S8000x128_S128x128_S8000x128_1_0_0_1_n_n.rhsIdx (ix2 p q) ((ValueIdx.contrEquiv1 dot_S8000x128_S128x128_S8000x128_1_0_0_1_n_n 128 rfl rfl).symm k) = ix2 k q := funext fun a => Fin.ext (by
    match a with
    | ⟨0, _⟩ => exact (rhs_edge2_0 _ _).trans hk
    | ⟨1, _⟩ => exact rhs_edge2_1 _ _)
  rw [el, er]

/-! ## One column broadcast over many -/

/-- An `[a, 1]` array broadcast to `[a, b]` reads, at `(p, c)`, the operand's one column at row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at an index -/

/-- The body's value at row `p`, column `q` of a block: the filter network of row `p` of the edge-attribute block with the
    whole weights and biases, times the envelope block's entry of row `p`. -/
theorem edge_payload_apply (x0 : Vec Ideal S8000x50 .f32) (w1 : Vec Ideal S50x128 .f32) (b1 : Vec Ideal S1x128 .f32)
    (w2 : Vec Ideal S128x128 .f32) (b2 : Vec Ideal S1x128 .f32) (ce : Vec Ideal S8000x1 .f32) (p : Fin 8000) (q : Fin 128) :
    k1_pay1 (F := Ideal) x0 w1 b1 w2 b2 ce (ix2 p q)
      = ((∑ j : Fin 128, Cert.CFConv.ssp ((∑ k : Fin 50, x0 (ix2 p k) * w1 (ix2 k j)) + b1 (ix2 0 j)) * w2 (ix2 j q)) + b2 (ix2 0 q)) * ce (ix2 p 0) := by
  unfold k1_pay1
  simp only [shapeCast_self]
  rw [mulf_apply, addf_apply, edge2_matmul_apply, broadcastTo_1b_ab_apply, broadcastTo_a1_ab_apply]
  refine congrArg (· * _) (congrArg (· + _) (Finset.sum_congr rfl fun j _ => ?_))
  rw [truncf_apply, truncf_apply]
  refine congrArg (· * _) ?_
  -- the first layer's pre-activation at (p, j)
  have hY : (addf (matmul dot_S8000x50_S50x128_S8000x128_1_0_0_1_n_n none (truncf .bf16 x0 bitsLt_bf16_f32) (truncf .bf16 w1 bitsLt_bf16_f32) (constant (F := Ideal) S8000x128 .f32 0x00000000#32))
      (broadcastTo S8000x128 b1 broadcasts_S1x128_S8000x128)) (ix2 p j) = (∑ k : Fin 50, x0 (ix2 p k) * w1 (ix2 k j)) + b1 (ix2 0 j) := by
    rw [addf_apply, edge1_matmul_apply, broadcastTo_1b_ab_apply]
    rfl
  rw [← hY]
  generalize (addf (matmul dot_S8000x50_S50x128_S8000x128_1_0_0_1_n_n none (truncf .bf16 x0 bitsLt_bf16_f32) (truncf .bf16 w1 bitsLt_bf16_f32) (constant (F := Ideal) S8000x128 .f32 0x00000000#32))
      (broadcastTo S8000x128 b1 broadcasts_S1x128_S8000x128)) = Y
  exact Cert.CFConv.ssp_kernel_form (Y (ix2 p j))

/-! ## From the blocks to the array -/

theorem zero_offsets : (![0, 0] : Fin 2 → Nat) = fun _ => 0 := funext fun a => by fin_cases a <;> rfl

/-- The windows' index maps, evaluated over the grid: at point `t` the edge-attribute, envelope and output windows sit at row block `t`,
    every other block index is zero. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of point `t`'s edge-attribute block is row `8000 t + p` of the array. -/
theorem ea_block_apply (c : Dev nD) (t : Fin cfg1.N) (p : Fin 8000) (k : Fin 50) (r : Fin 640000) (hr : r.val = t.val * 8000 + p.val) :
    iblk1 V c 0 t (ix2 p k) = V c main_arg3 (ix2 r k) := by
  obtain ⟨e0, e1, -⟩ := block_indices t
  unfold iblk1
  rw [View.read_apply]
  show V c main_arg3 (((cfg1.win 0).blk t).view.emb (ix2 p k)) = V c main_arg3 (ix2 r k)
  refine congrArg _ (funext fun a => Fin.ext ?_)
  match a with
  | ⟨0, _⟩ => show win1_0.index t (0 : Fin 2) * 8000 + 1 * p.val = r.val; rw [e0, hr]; omega
  | ⟨1, _⟩ => show win1_0.index t (1 : Fin 2) * 50 + 1 * k.val = k.val; rw [e1]; omega

/-- Row `p` of point `t`'s envelope block is row `8000 t + p` of the envelope column. -/
theorem env_block_apply (c : Dev nD) (t : Fin cfg1.N) (p : Fin 8000) (z : Fin 1) (r : Fin 640000) (hr : r.val = t.val * 8000 + p.val) :
    iblk1 V c 1 t (ix2 p z) = V c main_v11 (ix2 r z) := by
  obtain ⟨-, -, e0, e1, -⟩ := block_indices t
  unfold iblk1
  rw [View.read_apply]
  show V c main_v11 (((cfg1.win 1).blk t).view.emb (ix2 p z)) = V c main_v11 (ix2 r z)
  refine congrArg _ (funext fun a => Fin.ext ?_)
  match a with
  | ⟨0, _⟩ => show win1_1.index t (0 : Fin 2) * 8000 + 1 * p.val = r.val; rw [e0, hr]; omega
  | ⟨1, _⟩ => show win1_1.index t (1 : Fin 2) * 1 + 1 * z.val = z.val; rw [e1]; omega

/-- The first layer's weights are held whole at every point. -/
theorem w1_block_apply (c : Dev nD) (t : Fin cfg1.N) (k : Fin 50) (j : Fin 128) :
    iblk1 V c 2 t (ix2 k j) = V c main_v12 (ix2 k j) := by
  obtain ⟨-, -, -, -, e0, e1, -⟩ := block_indices t
  unfold iblk1
  rw [View.read_apply]
  show V c main_v12 (((cfg1.win 2).blk t).view.emb (ix2 k j)) = V c main_v12 (ix2 k j)
  refine congrArg _ (funext fun a => Fin.ext ?_)
  match a with
  | ⟨0, _⟩ => show win1_2.index t (0 : Fin 2) * 50 + 1 * k.val = k.val; rw [e0]; omega
  | ⟨1, _⟩ => show win1_2.index t (1 : Fin 2) * 128 + 1 * j.val = j.val; rw [e1]; omega

/-- The first layer's bias row is held whole at every point. -/
theorem b1_block_apply (c : Dev nD) (t : Fin cfg1.N) (z : Fin 1) (j : Fin 128) :
    iblk1 V c 3 t (ix2 z j) = V c main_v17 (ix2 z j) := by
  obtain ⟨-, -, -, -, -, -, e0, e1, -⟩ := block_indices t
  unfold iblk1
  rw [View.read_apply]
  show V c main_v17 (((cfg1.win 3).blk t).view.emb (ix2 z j)) = V c main_v17 (ix2 z j)
  refine congrArg _ (funext fun a => Fin.ext ?_)
  match a with
  | ⟨0, _⟩ => show win1_3.index t (0 : Fin 2) * 1 + 1 * z.val = z.val; rw [e0]; omega
  | ⟨1, _⟩ => show win1_3.index t (1 : Fin 2) * 128 + 1 * j.val = j.val; rw [e1]; omega

/-- The second layer's weights are held whole at every point. -/
theorem w2_block_apply (c : Dev nD) (t : Fin cfg1.N) (j : Fin 128) (q : Fin 128) :
    iblk1 V c 4 t (ix2 j q) = V c main_v13 (ix2 j q) := by
  obtain ⟨-, -, -, -, -, -, -, -, e0, e1, -⟩ := block_indices t
  unfold iblk1
  rw [View.read_apply]
  show V c main_v13 (((cfg1.win 4).blk t).view.emb (ix2 j q)) = V c main_v13 (ix2 j q)
  refine congrArg _ (funext fun a => Fin.ext ?_)
  match a with
  | ⟨0, _⟩ => show win1_4.index t (0 : Fin 2) * 128 + 1 * j.val = j.val; rw [e0]; omega
  | ⟨1, _⟩ => show win1_4.index t (1 : Fin 2) * 128 + 1 * q.val = q.val; rw [e1]; omega

/-- The second layer's bias row is held whole at every point. -/
theorem b2_block_apply (c : Dev nD) (t : Fin cfg1.N) (z : Fin 1) (q : Fin 128) :
    iblk1 V c 5 t (ix2 z q) = V c main_v18 (ix2 z q) := by
  obtain ⟨-, -, -, -, -, -, -, -, -, -, e0, e1, -⟩ := block_indices t
  unfold iblk1
  rw [View.read_apply]
  show V c main_v18 (((cfg1.win 5).blk t).view.emb (ix2 z q)) = V c main_v18 (ix2 z q)
  refine congrArg _ (funext fun a => Fin.ext ?_)
  match a with
  | ⟨0, _⟩ => show win1_5.index t (0 : Fin 2) * 1 + 1 * z.val = z.val; rw [e0]; omega
  | ⟨1, _⟩ => show win1_5.index t (1 : Fin 2) * 128 + 1 * q.val = q.val; rw [e1]; omega

/-- What point `t` writes back is block `t` of the edge filter of the arrays the region finds. -/
theorem flushed_eq (c : Dev nD) (t : Fin cfg1.N) :
    (dat1 (F := Ideal) V c).flushed 6 t = ((cfg1.win 6).blk t).view.read (Elt Ideal)
      (Cert.CFConv.edgeFilter (V c main_arg3) (V c main_v11) (V c main_v12) (V c main_v17) (V c main_v13) (V c main_v18)) := by
  show (cfg1.win 6).cut (grid1.coords t) ((dat1 V c).after 6 t) = _
  rw [after1_6]
  unfold out1_6
  rw [View.canon_unit_zero zero_offsets]
  simp only [View.ld_unit_zero (S := S8000x50) zero_offsets, View.ld_unit_zero (S := S50x128) zero_offsets, View.ld_unit_zero (S := S1x128) zero_offsets,
    View.ld_unit_zero (S := S128x128) zero_offsets, View.ld_unit_zero (S := S8000x1) zero_offsets]
  funext y
  have hp : (y 0).val < 8000 := (y 0).isLt
  have hq : (y 1).val < 128 := (y 1).isLt
  have hN : t.val < 80 := lt_of_lt_of_eq t.isLt N_1
  have hr : t.val * 8000 + (y 0).val < 640000 := by omega
  obtain ⟨-, -, -, -, -, -, -, -, -, -, -, -, e0, e1⟩ := block_indices t
  -- the index inside the block, and the index of the array it sits at
  have ey : (win1 6).xinj (grid1.coords t) y = ix2 (⟨(y 0).val, hp⟩ : Fin 8000) (⟨(y 1).val, hq⟩ : Fin 128) :=
    funext fun a => by match a with | ⟨0, _⟩ => rfl | ⟨1, _⟩ => rfl
  have ei : ((cfg1.win 6).blk t).view.emb y = ix2 (⟨t.val * 8000 + (y 0).val, hr⟩ : Fin 640000) (⟨(y 1).val, hq⟩ : Fin 128) := by
    funext a; apply Fin.ext
    match a with
    | ⟨0, _⟩ => show win1_6.index t (0 : Fin 2) * 8000 + 1 * (y 0).val = t.val * 8000 + (y 0).val; rw [e0]; omega
    | ⟨1, _⟩ => show win1_6.index t (1 : Fin 2) * 128 + 1 * (y 1).val = (y 1).val; rw [e1]; omega
  show k1_pay1 _ _ _ _ _ _ ((win1 6).xinj (grid1.coords t) y) = _
  rw [ey, edge_payload_apply]
  show _ = Cert.CFConv.edgeFilter (V c main_arg3) (V c main_v11) (V c main_v12) (V c main_v17) (V c main_v13) (V c main_v18) (((cfg1.win 6).blk t).view.emb y)
  rw [ei]
  unfold Cert.CFConv.edgeFilter Cert.CFConv.edgeMlp
  refine congrArg₂ (· * ·) (congrArg₂ (· + ·) (Finset.sum_congr rfl fun j _ => congrArg₂ (· * ·) (congrArg Cert.CFConv.ssp
    (congrArg₂ (· + ·) (Finset.sum_congr rfl fun k _ => congrArg₂ (· * ·) ?_ ?_) ?_)) ?_) ?_) ?_
  · exact ea_block_apply V c t _ k _ rfl
  · exact w1_block_apply V c t k j
  · exact b1_block_apply V c t 0 j
  · exact w2_block_apply V c t j _
  · exact b2_block_apply V c t 0 _
  · exact env_block_apply V c t _ 0 _ rfl

/-- An index of the output array is in point `t`'s block iff each coordinate is in the block's range on its axis. -/
theorem mem_block (t : Fin cfg1.N) (i : S640000x128.Idx) :
    i ∈ ((cfg1.win 6).blk t).view.set ↔ ∀ a : Fin 2, win1_6.index t a * S8000x128.size a ≤ (i a).val ∧ (i a).val < win1_6.index t a * S8000x128.size a + S8000x128.size a := by
  show i ∈ ((View.whole main_v22).slice (win1_6.rect t)).set ↔ _
  rw [View.set_slice_whole, Rect.mem_set_unit]
  exact Iff.rfl

/-- The eighty row blocks tile the 640000 rows: row `r` is in the block of point `r / 8000`. -/
theorem cover (i : S640000x128.Idx) : ∃ t : Fin cfg1.N, (cfg1.win 6).flush t = true ∧ i ∈ ((cfg1.win 6).blk t).view.set := by
  have hi0 : (i 0).val < 640000 := (i 0).isLt
  have hi1 : (i 1).val < 128 := (i 1).isLt
  have hN : grid1.N = 80 := N_1
  have ht : (i 0).val / 8000 < cfg1.N := by show (i 0).val / 8000 < grid1.N; rw [hN]; omega
  obtain ⟨-, -, -, -, -, -, -, -, -, -, -, -, e0, e1⟩ := block_indices ⟨(i 0).val / 8000, ht⟩
  refine ⟨⟨(i 0).val / 8000, ht⟩, flush1_6 _, ?_⟩
  rw [mem_block]
  intro a
  match a with
  | ⟨0, _⟩ =>
    show win1_6.index ⟨(i 0).val / 8000, ht⟩ (0 : Fin 2) * 8000 ≤ (i 0).val ∧ (i 0).val < win1_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win1_6.index ⟨(i 0).val / 8000, ht⟩ (1 : Fin 2) * 128 ≤ (i 1).val ∧ (i 1).val < win1_6.index ⟨(i 0).val / 8000, ht⟩ (1 : Fin 2) * 128 + 128
    rw [e1]; omega

end Region1

/-- The array the second launch leaves: the edge filter of the region-entry arrays. -/
theorem region1_out (c : Dev nD) :
    (dat1 (F := Ideal) V c).arrAt 6 cfg1.N
      = Cert.CFConv.edgeFilter (V c main_arg3) (V c main_v11) (V c main_v12) (V c main_v17) (V c main_v13) (V c main_v18) :=
  (dat1 (F := Ideal) V c).arrAt_eq_of_cover 6 _ (fun t _ => Region1.flushed_eq V c t) Region1.cover

end Cert.KernelIdeal.RegionValue

end
-- ==== Proof.Region2.lean ====
/-
  The third launch (8 grid points, 5000 node rows each): its output array after the run is the node output
  ssp(agg · w1t + b1) · w2t + b2 of the arrays the region finds, index by index — each point's block is that
  expression of the point's rows of `agg` with the whole weights, and the eight row blocks tile the 40000 rows.
-/
import proofs.«423022_j34797825032818_2_alg».proof.Proof.Gen.KernelIdeal.Frame
import proofs.«423022_j34797825032818_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat Cfg Window)
open Cert.KernelIdeal Cert.KernelIdeal.Gen

-- the buffer contents when the region is entered: every statement below holds at any such contents
variable (V : (c : Dev nD) → (b : Ref sig .tc) → Buf (Elt Ideal) ((c : Thread nD τ).loc b))

namespace Region2

/-! ## The contraction's operand indices

The launch's two products contract the second axis of a [5000,128] block with the first axis of a [128,128] matrix:
at output index (r, f) and contraction index k the left operand is read at (r, k) and the right one at (k, f). -/

/-- The left operand's row is the output's row. -/
theorem dot_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contraction index. -/
theorem dot_lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem dot_rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem dot_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, read at (p, q): Σ_k a[p,k] · w[k,q]. -/
theorem matmul_apply_ix2 (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  show FloatOps.matmul dot_S5000x128_S128x128_S5000x128_1_0_0_1_n_n none a w (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot_lhs_row _ _
    | ⟨1, _⟩ => exact (dot_lhs_contr _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot_rhs_contr _ _).trans hk
    | ⟨1, _⟩ => exact dot_rhs_col _ _)
  rw [el, er]

/-! ## The body's arithmetic at one index -/

/-- The body's softplus chain on a whole block, read at one index, is the shifted softplus of that element:
    the chain is elementwise, and on one element it is the form the specification names. -/
theorem softplus_apply (Y : FVec Ideal S5000x128 .f32) (i : S5000x128.Idx) :
    (subf (select (cmpf .one (subf Y (broadcast S5000x128 (FloatOps.ofBits .f32 0x00000000#32))) (subf Y (broadcast S5000x128 (FloatOps.ofBits .f32 0x00000000#32))))
        (addf Y (broadcast S5000x128 (FloatOps.ofBits .f32 0x00000000#32)))
        (addf (maximumf Y (broadcast S5000x128 (FloatOps.ofBits .f32 0x00000000#32)))
          (log1p (exp (subf (broadcast S5000x128 (FloatOps.ofBits .f32 0x00000000#32)) (absf (subf Y (broadcast S5000x128 (FloatOps.ofBits .f32 0x00000000#32)))))))))
      (broadcast S5000x128 (FloatOps.ofBits .f32 0x3F317218#32))) i = Cert.CFConv.ssp (Y i) :=
  Cert.CFConv.ssp_kernel_form (Y i)

/-- The body's result at (p, q), from the five blocks it loads:
    Σ_j ssp(Σ_k x0[p,k] · x1[k,j] + x2[0,j]) · x3[j,q] + x4[0,q].
    The casts of a shape to itself and the narrowing of the operands change nothing at the ideal values; each bias row is
    read at its one row; the inner product feeds the softplus element by element. -/
theorem payload_apply (x0 : Vec Ideal S5000x128 .f32) (x1 : Vec Ideal S128x128 .f32) (x2 : Vec Ideal S1x128 .f32)
    (x3 : Vec Ideal S128x128 .f32) (x4 : Vec Ideal S1x128 .f32) (p : Fin 5000) (q : Fin 128) :
    k2_pay1 (F := Ideal) x0 x1 x2 x3 x4 (ix2 p q)
      = (∑ j : Fin 128, Cert.CFConv.ssp ((∑ k : Fin 128, x0 (ix2 p k) * x1 (ix2 k j)) + x2 (ix2 0 j)) * x3 (ix2 j q)) + x4 (ix2 0 q) := by
  unfold k2_pay1
  simp only [shapeCast_self]
  rw [addf_apply, matmul_apply_ix2, broadcastTo_1b_ab_apply]
  congr 1
  refine Finset.sum_congr rfl fun j _ => ?_
  rw [truncf_apply, truncf_apply, softplus_apply, addf_apply, matmul_apply_ix2, broadcastTo_1b_ab_apply]
  rfl

/-! ## Each window's block as a part of its array -/

/-- Both offsets of a whole-buffer access are zero. -/
theorem zero_offsets : (![0, 0] : Fin 2 → Nat) = fun _ => 0 := funext fun a => by fin_cases a <;> rfl

/-- The block indices over the eight grid points: the node rows' window and the output's window sit at row block t,
    column block 0; the two weight matrices and the two bias rows are always at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of point t's block of the node rows is row 5000 t + p of the array. -/
theorem rows_block_apply (c : Dev nD) (t : Fin cfg2.N) (p : Fin 5000) (k : Fin 128) (r : Fin 40000) (hr : r.val = t.val * 5000 + p.val) :
    (iblk2 (F := Ideal) V c 0 t : Vec Ideal S5000x128 .f32) (ix2 p k) = (V c main_v27 : S40000x128.Idx → EReal) (ix2 r k) := by
  show V c main_v27 (((cfg2.win 0).blk t).view.emb (ix2 p k)) = V c main_v27 (ix2 r k)
  obtain ⟨e0, e1, -⟩ := block_indices t
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The first weight matrix's block is the whole matrix, at every point. -/
theorem w1_block_eq (c : Dev nD) (t : Fin cfg2.N) :
    (iblk2 (F := Ideal) V c 1 t : Vec Ideal S128x128 .f32) = (V c main_v15 : S128x128.Idx → EReal) := by
  funext y
  show V c main_v15 (((cfg2.win 1).blk t).view.emb y) = V c main_v15 y
  obtain ⟨-, -, e0, e1, -⟩ := block_indices t
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- The first bias row's block is the whole row, at every point. -/
theorem b1_block_eq (c : Dev nD) (t : Fin cfg2.N) :
    (iblk2 (F := Ideal) V c 2 t : Vec Ideal S1x128 .f32) = (V c main_v19 : S1x128.Idx → EReal) := by
  funext y
  show V c main_v19 (((cfg2.win 2).blk t).view.emb y) = V c main_v19 y
  obtain ⟨-, -, -, -, e0, e1, -⟩ := block_indices t
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The second weight matrix's block is the whole matrix, at every point. -/
theorem w2_block_eq (c : Dev nD) (t : Fin cfg2.N) :
    (iblk2 (F := Ideal) V c 3 t : Vec Ideal S128x128 .f32) = (V c main_v16 : S128x128.Idx → EReal) := by
  funext y
  show V c main_v16 (((cfg2.win 3).blk t).view.emb y) = V c main_v16 y
  obtain ⟨-, -, -, -, -, -, e0, e1, -⟩ := block_indices t
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- The second bias row's block is the whole row, at every point. -/
theorem b2_block_eq (c : Dev nD) (t : Fin cfg2.N) :
    (iblk2 (F := Ideal) V c 4 t : Vec Ideal S1x128 .f32) = (V c main_v20 : S1x128.Idx → EReal) := by
  funext y
  show V c main_v20 (((cfg2.win 4).blk t).view.emb y) = V c main_v20 y
  obtain ⟨-, -, -, -, -, -, -, -, e0, e1, -⟩ := block_indices t
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Index (p, q) of point t's output block is index (5000 t + p, q) of the output array. -/
theorem out_block_emb (t : Fin cfg2.N) (p : Fin 5000) (q : Fin 128) (r : Fin 40000) (hr : r.val = t.val * 5000 + p.val) :
    (((cfg2.win 5).blk t).view.emb (ix2 p q) : S40000x128.Idx) = ix2 r q := by
  obtain ⟨-, -, -, -, -, -, -, -, -, -, e0, e1⟩ := block_indices t
  refine funext fun a => Fin.ext ?_
  match a with
  | ⟨0, _⟩ => show win2_5.index t (0 : Fin 2) * 5000 + 1 * p.val = r.val; omega
  | ⟨1, _⟩ => show win2_5.index t (1 : Fin 2) * 128 + 1 * q.val = q.val; omega

/-! ## What each point writes back, and the whole array -/

/-- The body's result on point t's blocks, index by index, is the two node layers of the region-entry arrays at the
    array index the output block puts there: the rows of the block are rows 5000 t … 5000 t + 4999 of the node
    rows, and the weights and biases are whole. -/
theorem payload_eq_nodeMlp (c : Dev nD) (t : Fin cfg2.N) (y : S5000x128.Idx) :
    k2_pay1 (F := Ideal) (iblk2 V c 0 t) (iblk2 V c 1 t) (iblk2 V c 2 t) (iblk2 V c 3 t) (iblk2 V c 4 t) y
      = Cert.CFConv.nodeMlp (V c main_v27) (V c main_v15) (V c main_v19) (V c main_v16) (V c main_v20) (((cfg2.win 5).blk t).view.emb y) := by
  obtain ⟨p, q, rfl⟩ : ∃ (p : Fin 5000) (q : Fin 128), y = ix2 p q := ⟨y 0, y 1, eq_ix2 y⟩
  have hN : cfg2.N = 8 := N_2
  have hr : t.val * 5000 + p.val < 40000 := by have := t.isLt; have := p.isLt; omega
  rw [payload_apply, out_block_emb t p q ⟨t.val * 5000 + p.val, hr⟩ rfl, w1_block_eq, b1_block_eq, w2_block_eq, b2_block_eq]
  simp only [rows_block_apply V c t p _ ⟨t.val * 5000 + p.val, hr⟩ rfl]
  rfl

/-- What point t writes back is its block of the two node layers of the region-entry arrays. -/
theorem flushed_eq (c : Dev nD) (t : Fin cfg2.N) :
    (dat2 (F := Ideal) V c).flushed 5 t = ((cfg2.win 5).blk t).view.read (Elt Ideal)
      (Cert.CFConv.nodeMlp (V c main_v27) (V c main_v15) (V c main_v19) (V c main_v16) (V c main_v20)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x128) zero_offsets, View.ld_unit_zero (S := S1x128) zero_offsets]
  funext y
  exact payload_eq_nodeMlp V c t y

/-- An index of the output array is in point t's block iff each coordinate is in the block's range on its axis. -/
theorem mem_out_block (t : Fin cfg2.N) (i : S40000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v28).slice (win2_5.rect t)).set ↔ _
  rw [View.set_slice_whole, Rect.mem_set_unit]
  exact Iff.rfl

/-- The eight row blocks tile the 40000 rows: row r lies in the block of point r / 5000. -/
theorem out_blocks_cover (i : S40000x128.Idx) :
    ∃ t : Fin cfg2.N, (cfg2.win 5).flush t = true ∧ i ∈ ((cfg2.win 5).blk t).view.set := by
  have hN : cfg2.N = 8 := N_2
  have hi0 : (i 0).val < 40000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := block_indices t
  refine ⟨t, flush2_5 t, ?_⟩
  rw [mem_out_block]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

end Region2

open Region2 in
/-- The array the third launch leaves: the two node layers of the region-entry arrays. -/
theorem region2_out (c : Dev nD) :
    (dat2 (F := Ideal) V c).arrAt 5 cfg2.N
      = Cert.CFConv.nodeMlp (V c main_v27) (V c main_v15) (V c main_v19) (V c main_v16) (V c main_v20) := by
  exact (dat2 V c).arrAt_eq_of_cover 5 _ (fun t _ => flushed_eq V c t) out_blocks_cover

end Cert.KernelIdeal.RegionValue

end
-- ==== Proof.Take.lean ====
/-
  The kernel's row gather `jnp.take(h, src, axis=0)` as one function of the node array and the index vector: negative
  indices are wrapped by the row count, the gathered rows are kept where the wrapped index lies in 0 … 39999, and every
  other row is filled with the not-a-number word. Where every index is a valid row index (−40000 ≤ i < 40000) the
  wrapped index always lies in range, so the fill never happens and the function is the plain gather at the wrapped
  index — which is all the reference's `h[src]` does.
-/
import proofs.«423022_j34797825032818_2_alg».proof.Proof.Gen.KernelIdeal
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

namespace Cert.KernelIdeal.Take

open Idealize.ShloMosaic Idealize.ShloMosaic.TcCoe Idealize.ShloMosaic.ValueIdx
open Cert.KernelIdeal Cert.KernelIdeal.Facts₀

/-- An index vector with its negative entries wrapped by the row count, as a column. -/
def wrapIdx (s : IVec S640000 32) : IVec S640000x1 32 :=
  broadcastInDim S640000x1 ![0] bcast_S640000_S640000x1_0
    (select (cmpi .slt s (broadcastInDim S640000 ![] bcast_S_S640000 (constantI S_ 32 0#32)))
      (addi s (broadcastInDim S640000 ![] bcast_S_S640000 (constantI S_ 32 40000#32))) s)

/-- Per output element: does the (wrapped) row index lie in 0 … 39999? -/
def inRange (i5 : IVec S640000x1 32) : IVec S640000x128 1 :=
  broadcastInDim S640000x128 ![0] bcast_S640000_S640000x128_0
    (Host.reduce IntOp.andi
      (andi (cmpi .sge i5 (broadcastInDim S640000x1 ![] bcast_S_S640000x1 (constantI S_ 32 0#32)))
        (cmpi .sle i5 (broadcastInDim S640000x1 ![0, 1] bcast_S1x1_S640000x1_0_1 (broadcastInDim S1x1 ![1] bcast_S1_S1x1_1 (constantI S1 32 39999#32)))))
      (constantI S_ 1 1#1) reducesTo_S640000x1_S640000_d1 h_S_)

/-- The kernel's fill-mode row gather. -/
def takeFill (h : FVec Ideal S40000x128 .f32) (s : IVec S640000 32) : FVec Ideal S640000x128 .f32 :=
  select (inRange (wrapIdx s))
    (Host.gather gather_S40000x128_S640000x1_S640000x128_1_0_n_n_0_1_1128 h (wrapIdx s))
    (broadcastInDim S640000x128 ![] bcast_S_S640000x128 (constant (F := Ideal) S_ .f32 0x7FC00000#32))

/-- A left fold by "and" from 1 over one-bit words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_one f hf l

/-- A reduction by "and" from 1 of a one-bit array that is 1 everywhere is 1 everywhere. -/
theorem reduce_andi_one {s t u : Shape} {axes : List (Fin s.rank)} (x : s.Idx → BitVec 1) (init : u.Idx → BitVec 1)
    (h : s.ReducesTo axes t) (hu : 0 < u.numel) (hinit : ∀ k, init k = 1#1) (hx : ∀ k, x k = 1#1) (j : t.Idx) :
    Host.reduce IntOp.andi x init h hu j = 1#1 := by
  rw [Host.reduce_eq_foldl, hinit]
  exact foldl_andi_one x hx _

/-- For a 32-bit word v with −40000 ≤ v < 40000 (signed), the wrapped word (v + 40000 if v < 0, else v) lies in
    0 … 39999: a negative v has −40000 ≤ v ≤ −1, so v + 40000 does not wrap and lies in 0 … 39999; a nonnegative v is
    below 40000 already. -/
theorem wrap_word (v : BitVec 32) (h1 : -40000 ≤ v.toInt) (h2 : v.toInt < 40000) :
    IntOp.andi (IntOp.cmpi .sge (Scalar.select (IntOp.cmpi .slt v 0#32) (IntOp.addi v 40000#32) v) 0#32)
      (IntOp.cmpi .sle (Scalar.select (IntOp.cmpi .slt v 0#32) (IntOp.addi v 40000#32) v) 39999#32) = 1#1 := by
  rw [IntOp.andi_eq_one, IntOp.cmpi_sge, IntOp.cmpi_sle]
  have z0 : (0#32 : BitVec 32).toInt = 0 := by decide
  have z1 : (39999#32 : BitVec 32).toInt = 39999 := by decide
  have z2 : (40000#32 : BitVec 32).toInt = 40000 := by decide
  rw [z0, z1]
  unfold Scalar.select
  by_cases hc : IntOp.cmpi .slt v 0#32 = (1 : BitVec 1)
  · rw [if_pos hc]
    have hneg : v.toInt < 0 := by
      have := IntOp.cmpi_slt.1 (show IntOp.cmpi .slt v 0#32 = 1#1 from hc)
      rwa [z0] at this
    have ha : (IntOp.addi v 40000#32).toInt = v.toInt + 40000 := by
      unfold IntOp.addi
      rw [BitVec.toInt_add, z2]
      exact Int.bmod_eq_of_le_mul_two (by omega) (by omega)
    rw [ha]
    omega
  · rw [if_neg hc]
    have hnn : ¬ v.toInt < 0 := fun hlt =>
      hc (show IntOp.cmpi .slt v 0#32 = 1#1 from IntOp.cmpi_slt.2 (by rw [z0]; exact hlt))
    omega

/-- A broadcast of a one-bit array that is 1 everywhere is 1 everywhere. -/
theorem bcast_eq_one {s t : Shape} (dims : Fin s.rank → Fin t.rank) (h : s.BroadcastsInDim t dims) (x : s.Idx → BitVec 1)
    (hx : ∀ k, x k = 1#1) (j : t.Idx) : broadcastInDim t dims h x j = 1#1 := by
  unfold broadcastInDim
  exact hx _

/-- Every wrapped index passes the range test 0 ≤ · ≤ 39999. -/
theorem wrapIdx_inRange (s : IVec S640000 32)
    (hs : ∀ e : S640000.Idx, -40000 ≤ (s e).toInt ∧ (s e).toInt < 40000) (k : S640000x1.Idx) :
    andi (cmpi .sge (wrapIdx s) (broadcastInDim S640000x1 ![] bcast_S_S640000x1 (constantI S_ 32 0#32)))
      (cmpi .sle (wrapIdx s) (broadcastInDim S640000x1 ![0, 1] bcast_S1x1_S640000x1_0_1
        (broadcastInDim S1x1 ![1] bcast_S1_S1x1_1 (constantI S1 32 39999#32)))) k = 1#1 :=
  wrap_word (s _) (hs _).1 (hs _).2

/-- With every index a valid row index the fill never happens: the function is the gather at the wrapped index. -/
theorem takeFill_eq_gather (h : FVec Ideal S40000x128 .f32) (s : IVec S640000 32)
    (hs : ∀ e : S640000.Idx, -40000 ≤ (s e).toInt ∧ (s e).toInt < 40000) :
    takeFill h s = Host.gather gather_S40000x128_S640000x1_S640000x128_1_0_n_n_0_1_1128 h (wrapIdx s) := by
  funext i
  unfold takeFill
  rw [ValueIdx.select_apply]
  have hm : inRange (wrapIdx s) i = 1#1 := by
    unfold inRange
    exact bcast_eq_one _ _ _ (reduce_andi_one _ _ _ _ (fun _ => rfl) (wrapIdx_inRange s hs)) i
  rw [hm, ValueIdx.select_one]

end Cert.KernelIdeal.Take

end
-- ==== Proof.HostGlue.lean ====
/-
  The buffers the three launches read, walked back to the arguments, and with them the kernel's result as one term of the
  arguments: the node layer and the edge filter feed the host's gather, product and scatter-add, whose sum the last launch
  turns into the output.
-/
import proofs.«423022_j34797825032818_2_alg».proof.Proof.KernelRun
import proofs.«423022_j34797825032818_2_alg».proof.Proof.Region0
import proofs.«423022_j34797825032818_2_alg».proof.Proof.Region1
import proofs.«423022_j34797825032818_2_alg».proof.Proof.Region2
import proofs.«423022_j34797825032818_2_alg».proof.Proof.Take
import proofs.«423022_j34797825032818_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen Cert.CFConv Cert.KernelIdeal.Take

variable (m : (ℓ : Loc nD τ sig) → Buf (Elt Ideal) ℓ) (ρ : Dev nD → PrngReg)

/-- A vector cast to one column reads, at (e, u), the vector at e. -/
theorem shapeCast_a_a1_apply {α : Type} {a : ℕ} (x : (⟨1, ![a]⟩ : Shape).Idx → α) (h : (⟨1, ![a]⟩ : Shape).ShapeCasts ⟨2, ![a, 1]⟩)
    (e : Fin a) (u : Fin 1) : shapeCast ⟨2, ![a, 1]⟩ x h (ix2 e u) = x (ix1 e) :=
  shapeCast_apply x h _ _ (by
    have hu : u.val = 0 := by omega
    rw [Shape.rowMajor_val_two, Shape.rowMajor_val_one]
    show e.val = e.val * 1 + u.val
    omega)

/-! ## After the first stretch of host operations: the transposed weights, the biases as rows, the envelope as a column,
    the two index vectors -/

theorem W1_arg (c : Dev nD) (b : Ref sig .tc) (hb : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ hb

theorem W1_tr128 (c : Dev nD) (w : (⟨2, ![128, 128]⟩ : Shape).Idx → EReal) (h) :
    transpose S128x128 [1, 0] w h = tr128 w := by
  funext j
  obtain ⟨p, q, rfl⟩ : ∃ (p q : Fin 128), j = ix2 p q := ⟨j 0, j 1, eq_ix2 j⟩
  exact transpose_ix2_apply w h p q

theorem W1_v14 (c : Dev nD) : W1 m ρ c (Proc.devRef .tc main_v14) = tr128 (m ((c : Thread nD τ).loc main_arg8)) := by
  show StableHlo.after hostOps0 (W0 m ρ c) (Proc.devRef .tc main_v14) = _
  after_results
  exact W1_tr128 c _ _
theorem W1_v13 (c : Dev nD) : W1 m ρ c (Proc.devRef .tc main_v13) = tr128 (m ((c : Thread nD τ).loc main_arg6)) := by
  show StableHlo.after hostOps0 (W0 m ρ c) (Proc.devRef .tc main_v13) = _
  after_results
  exact W1_tr128 c _ _
theorem W1_v15 (c : Dev nD) : W1 m ρ c (Proc.devRef .tc main_v15) = tr128 (m ((c : Thread nD τ).loc main_arg9)) := by
  show StableHlo.after hostOps0 (W0 m ρ c) (Proc.devRef .tc main_v15) = _
  after_results
  exact W1_tr128 c _ _
theorem W1_v16 (c : Dev nD) : W1 m ρ c (Proc.devRef .tc main_v16) = tr128 (m ((c : Thread nD τ).loc main_arg11)) := by
  show StableHlo.after hostOps0 (W0 m ρ c) (Proc.devRef .tc main_v16) = _
  after_results
  exact W1_tr128 c _ _
theorem W1_v12 (c : Dev nD) : W1 m ρ c (Proc.devRef .tc main_v12) = tr50 (m ((c : Thread nD τ).loc main_arg4)) := by
  show StableHlo.after hostOps0 (W0 m ρ c) (Proc.devRef .tc main_v12) = _
  after_results
  funext j
  obtain ⟨p, q, rfl⟩ : ∃ (p : Fin 50) (q : Fin 128), j = ix2 p q := ⟨j 0, j 1, eq_ix2 j⟩
  exact transpose_ix2_apply _ _ p q

theorem row_of_cast (b : (⟨1, ![128]⟩ : Shape).Idx → EReal) (h) : shapeCast S1x128 b h = row b := by
  funext j
  obtain ⟨u, q, rfl⟩ : ∃ (u : Fin 1) (q : Fin 128), j = ix2 u q := ⟨j 0, j 1, eq_ix2 j⟩
  exact shapeCast_a_1a_apply b h u q

theorem W1_v17 (c : Dev nD) : W1 m ρ c (Proc.devRef .tc main_v17) = row (m ((c : Thread nD τ).loc main_arg5)) := by
  show StableHlo.after hostOps0 (W0 m ρ c) (Proc.devRef .tc main_v17) = _
  after_results
  exact row_of_cast _ _
theorem W1_v18 (c : Dev nD) : W1 m ρ c (Proc.devRef .tc main_v18) = row (m ((c : Thread nD τ).loc main_arg7)) := by
  show StableHlo.after hostOps0 (W0 m ρ c) (Proc.devRef .tc main_v18) = _
  after_results
  exact row_of_cast _ _
theorem W1_v19 (c : Dev nD) : W1 m ρ c (Proc.devRef .tc main_v19) = row (m ((c : Thread nD τ).loc main_arg10)) := by
  show StableHlo.after hostOps0 (W0 m ρ c) (Proc.devRef .tc main_v19) = _
  after_results
  exact row_of_cast _ _
theorem W1_v20 (c : Dev nD) : W1 m ρ c (Proc.devRef .tc main_v20) = row (m ((c : Thread nD τ).loc main_arg12)) := by
  show StableHlo.after hostOps0 (W0 m ρ c) (Proc.devRef .tc main_v20) = _
  after_results
  exact row_of_cast _ _

theorem W1_v11 (c : Dev nD) : W1 m ρ c (Proc.devRef .tc main_v11) = col (fun e => envK (m ((c : Thread nD τ).loc main_arg2) e)) := by
  show StableHlo.after hostOps0 (W0 m ρ c) (Proc.devRef .tc main_v11) = _
  after_results
  funext j
  obtain ⟨e, u, rfl⟩ : ∃ (e : Fin 640000) (u : Fin 1), j = ix2 e u := ⟨j 0, j 1, eq_ix2 j⟩
  refine (shapeCast_a_a1_apply _ _ e u).trans ?_
  rfl

/-- The source-node indices: row 0 of the edge index array. -/
def srcK (x1 : IVec S2x640000 32) : IVec S640000 32 :=
  shapeCast S640000 (extractStridedSlice S1x640000 ![0, 0] x1 slices_S2x640000_S1x640000_0_0) shapeCasts_S1x640000_S640000
/-- The target-node indices: row 1 of the edge index array. -/
def dstK (x1 : IVec S2x640000 32) : IVec S640000 32 :=
  shapeCast S640000 (extractStridedSlice S1x640000 ![1, 0] x1 slices_S2x640000_S1x640000_1_0) shapeCasts_S1x640000_S640000

theorem W1_v1 (c : Dev nD) : W1 m ρ c (Proc.devRef .tc main_v1) = srcK (m ((c : Thread nD τ).loc main_arg1)) := by
  show StableHlo.after hostOps0 (W0 m ρ c) (Proc.devRef .tc main_v1) = _
  after_results
  rfl
theorem W1_v3 (c : Dev nD) : W1 m ρ c (Proc.devRef .tc main_v3) = dstK (m ((c : Thread nD τ).loc main_arg1)) := by
  show StableHlo.after hostOps0 (W0 m ρ c) (Proc.devRef .tc main_v3) = _
  after_results
  rfl

theorem W1_main_arg0 (c : Dev nD) : W1 m ρ c (Proc.devRef .tc main_arg0) = m ((c : Thread nD τ).loc main_arg0) := by
  show StableHlo.after hostOps0 (W0 m ρ c) (Proc.devRef .tc main_arg0) = _
  after_results
theorem W1_main_arg3 (c : Dev nD) : W1 m ρ c (Proc.devRef .tc main_arg3) = m ((c : Thread nD τ).loc main_arg3) := by
  show StableHlo.after hostOps0 (W0 m ρ c) (Proc.devRef .tc main_arg3) = _
  after_results

/-! ## What the first two launches leave: the node layer and the edge filter of the arguments -/

theorem W2_v21 (c : Dev nD) : W2 m ρ c (Proc.devRef .tc main_v21)
    = nodeLin (m ((c : Thread nD τ).loc main_arg0)) (tr128 (m ((c : Thread nD τ).loc main_arg8))) := by
  refine (W2_arr m ρ c 2).trans ?_
  rw [RegionValue.region0_out (V1 m ρ) c]
  show nodeLin (W1 m ρ c (Proc.devRef .tc main_arg0)) (W1 m ρ c (Proc.devRef .tc main_v14)) = _
  rw [W1_main_arg0, W1_v14]

theorem W3_v22 (c : Dev nD) : W3 m ρ c (Proc.devRef .tc main_v22)
    = edgeFilter (m ((c : Thread nD τ).loc main_arg3)) (col fun e => envK (m ((c : Thread nD τ).loc main_arg2) e))
        (tr50 (m ((c : Thread nD τ).loc main_arg4))) (row (m ((c : Thread nD τ).loc main_arg5)))
        (tr128 (m ((c : Thread nD τ).loc main_arg6))) (row (m ((c : Thread nD τ).loc main_arg7))) := by
  refine (W3_arr m ρ c 6).trans ?_
  rw [RegionValue.region1_out (V2 m ρ) c]
  show edgeFilter (W2 m ρ c (Proc.devRef .tc main_arg3)) (W2 m ρ c (Proc.devRef .tc main_v11)) (W2 m ρ c (Proc.devRef .tc main_v12))
      (W2 m ρ c (Proc.devRef .tc main_v17)) (W2 m ρ c (Proc.devRef .tc main_v13)) (W2 m ρ c (Proc.devRef .tc main_v18)) = _
  rw [W2_of_ne m ρ c main_arg3 (by decide), W2_of_ne m ρ c main_v11 (by decide), W2_of_ne m ρ c main_v12 (by decide),
    W2_of_ne m ρ c main_v17 (by decide), W2_of_ne m ρ c main_v13 (by decide), W2_of_ne m ρ c main_v18 (by decide),
    W1_main_arg3, W1_v11, W1_v12, W1_v17, W1_v13, W1_v18]

theorem W3_v21 (c : Dev nD) : W3 m ρ c (Proc.devRef .tc main_v21)
    = nodeLin (m ((c : Thread nD τ).loc main_arg0)) (tr128 (m ((c : Thread nD τ).loc main_arg8))) :=
  (W3_of_ne m ρ c main_v21 (by decide)).trans (W2_v21 m ρ c)
theorem W3_v1 (c : Dev nD) : W3 m ρ c (Proc.devRef .tc main_v1) = srcK (m ((c : Thread nD τ).loc main_arg1)) :=
  (W3_of_ne m ρ c main_v1 (by decide)).trans ((W2_of_ne m ρ c main_v1 (by decide)).trans (W1_v1 m ρ c))
theorem W3_v3 (c : Dev nD) : W3 m ρ c (Proc.devRef .tc main_v3) = dstK (m ((c : Thread nD τ).loc main_arg1)) :=
  (W3_of_ne m ρ c main_v3 (by decide)).trans ((W2_of_ne m ρ c main_v3 (by decide)).trans (W1_v3 m ρ c))

/-! ## The host's gather, product and scatter-add between the second and the third launch -/

set_option maxHeartbeats 2000000 in
set_option maxRecDepth 100000 in
/-- The gather stretch, from any buffer contents: the gathered rows are `takeFill` of the node array and the index vector there. -/
theorem after2_v23 (G : Valuation τ sig (Elt Ideal)) : StableHlo.after hostOps2 G (Proc.devRef .tc main_v23)
    = takeFill (G (Proc.devRef .tc main_v21)) (G (Proc.devRef .tc main_v1)) := by
  after_results_simp
  simp only [TRef.ofBuf, TRef.toBuf, cast_eq]
  rfl

theorem W4_v23 (c : Dev nD) : W4 m ρ c (Proc.devRef .tc main_v23)
    = takeFill (W3 m ρ c (Proc.devRef .tc main_v21)) (W3 m ρ c (Proc.devRef .tc main_v1)) :=
  after2_v23 (W3 m ρ c)

set_option maxHeartbeats 2000000 in
theorem after2_v22 (G : Valuation τ sig (Elt Ideal)) : StableHlo.after hostOps2 G (Proc.devRef .tc main_v22) = G (Proc.devRef .tc main_v22) := by
  after_results_simp
set_option maxHeartbeats 2000000 in
theorem after2_v3 (G : Valuation τ sig (Elt Ideal)) : StableHlo.after hostOps2 G (Proc.devRef .tc main_v3) = G (Proc.devRef .tc main_v3) := by
  after_results_simp
theorem W4_v22 (c : Dev nD) : W4 m ρ c (Proc.devRef .tc main_v22) = W3 m ρ c (Proc.devRef .tc main_v22) := after2_v22 (W3 m ρ c)
theorem W4_v3 (c : Dev nD) : W4 m ρ c (Proc.devRef .tc main_v3) = W3 m ρ c (Proc.devRef .tc main_v3) := after2_v3 (W3 m ρ c)

/-- The scatter-add of per-edge rows into the node rows the target indices name, from zero. -/
def scatterSum (dst : IVec S640000 32) (msg : FVec Ideal S640000x128 .f32) : FVec Ideal S40000x128 .f32 :=
  Host.scatterAdd scatter_S40000x128_S640000x1_S640000x128_1_0_0_1
    (broadcastInDim S40000x128 ![] Gen.bcast_S_S40000x128 (constant (F := Ideal) S_ .f32 0x00000000#32))
    (broadcastInDim S640000x1 ![0] Gen.bcast_S640000_S640000x1_0 dst) msg

/-- The product and scatter-add stretch, from any buffer contents. -/
theorem after21_v27 (G : Valuation τ sig (Elt Ideal)) : StableHlo.after hostOps2_1 G (Proc.devRef .tc main_v27)
    = scatterSum (G (Proc.devRef .tc main_v3)) (mulf (G (Proc.devRef .tc main_v23)) (G (Proc.devRef .tc main_v22))) := by
  after_results
  rfl

theorem W5_v27 (c : Dev nD) : W5 m ρ c (Proc.devRef .tc main_v27)
    = scatterSum (W4 m ρ c (Proc.devRef .tc main_v3)) (mulf (W4 m ρ c (Proc.devRef .tc main_v23)) (W4 m ρ c (Proc.devRef .tc main_v22))) :=
  after21_v27 (W4 m ρ c)

/-- The aggregated messages as a term of the arguments: gather the node layer's rows at the (wrapped) source indices, multiply
    by the edge filter, scatter-add at the target indices. -/
def aggOf (x0 : FVec Ideal S40000x128 .f32) (x1 : IVec S2x640000 32) (x2 : FVec Ideal S640000 .f32) (x3 : FVec Ideal S640000x50 .f32)
    (x4 : FVec Ideal S128x50 .f32) (x5 : FVec Ideal S128 .f32) (x6 : FVec Ideal S128x128 .f32) (x7 : FVec Ideal S128 .f32)
    (x8 : FVec Ideal S128x128 .f32) : FVec Ideal S40000x128 .f32 :=
  scatterSum (dstK x1)
    (mulf (Host.gather gather_S40000x128_S640000x1_S640000x128_1_0_n_n_0_1_1128 (nodeLin x0 (tr128 x8)) (wrapIdx (srcK x1)))
      (edgeFilter x3 (col fun e => envK (x2 e)) (tr50 x4) (row x5) (tr128 x6) (row x7)))

/-- Where every source index is a valid row index, the third launch reads the aggregated messages of the arguments. -/
theorem W5_v27_value (c : Dev nD)
    (hs : ∀ e : S640000.Idx, -40000 ≤ (srcK (m ((c : Thread nD τ).loc main_arg1)) e).toInt ∧ (srcK (m ((c : Thread nD τ).loc main_arg1)) e).toInt < 40000) :
    W5 m ρ c (Proc.devRef .tc main_v27)
      = aggOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W5_v27, W4_v3, W4_v23, W4_v22, W3_v3, W3_v21, W3_v1, W3_v22, takeFill_eq_gather _ _ hs]
  rfl

/-- A buffer the first stretch wrote and nothing later touches is, at the third launch, what the first stretch left. -/
theorem W5_of_W1 (c : Dev nD) (b : Ref sig .tc)
    (h21 : ∀ op ∈ (hostOps2_1 : List (HloOp τ sig (Elt Ideal))), Proc.devRef .tc b ∉ op.writes)
    (h2 : ∀ op ∈ (hostOps2 : List (HloOp τ sig (Elt Ideal))), Proc.devRef .tc b ∉ op.writes)
    (h1 : ∀ w, Pipeline.arrRef spec1 w ≠ b) (h0 : ∀ w, Pipeline.arrRef spec0 w ≠ b) :
    W5 m ρ c (Proc.devRef .tc b) = W1 m ρ c (Proc.devRef .tc b) :=
  calc W5 m ρ c (Proc.devRef .tc b)
    _ = W4 m ρ c (Proc.devRef .tc b) := StableHlo.after_of_forall_not_mem (b := Proc.devRef .tc b) _ _ h21
    _ = W3 m ρ c (Proc.devRef .tc b) := StableHlo.after_of_forall_not_mem (b := Proc.devRef .tc b) _ _ h2
    _ = W2 m ρ c (Proc.devRef .tc b) := W3_of_ne m ρ c b h1
    _ = W1 m ρ c (Proc.devRef .tc b) := W2_of_ne m ρ c b h0

local macro "not_written" : tactic => `(tactic| (refine List.forall_iff_forall_mem.mp ?_; simp only [hostOps2, hostOps2_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' apply And.intro); all_goals exact StableHlo.devRef_ne_of_ne (by decide)))

theorem W5_v15 (c : Dev nD) : W5 m ρ c (Proc.devRef .tc main_v15) = tr128 (m ((c : Thread nD τ).loc main_arg9)) := by
  rw [W5_of_W1 m ρ c main_v15 (by not_written) (by not_written) (by decide) (by decide), W1_v15]
theorem W5_v16 (c : Dev nD) : W5 m ρ c (Proc.devRef .tc main_v16) = tr128 (m ((c : Thread nD τ).loc main_arg11)) := by
  rw [W5_of_W1 m ρ c main_v16 (by not_written) (by not_written) (by decide) (by decide), W1_v16]
theorem W5_v19 (c : Dev nD) : W5 m ρ c (Proc.devRef .tc main_v19) = row (m ((c : Thread nD τ).loc main_arg10)) := by
  rw [W5_of_W1 m ρ c main_v19 (by not_written) (by not_written) (by decide) (by decide), W1_v19]
theorem W5_v20 (c : Dev nD) : W5 m ρ c (Proc.devRef .tc main_v20) = row (m ((c : Thread nD τ).loc main_arg12)) := by
  rw [W5_of_W1 m ρ c main_v20 (by not_written) (by not_written) (by decide) (by decide), W1_v20]

/-! ## The result -/

/-- THE KERNEL'S RESULT as a term of the arguments: the two output layers over the aggregated messages. -/
theorem result_value (c : Dev nD)
    (hs : ∀ e : S640000.Idx, -40000 ≤ (srcK (m ((c : Thread nD τ).loc main_arg1)) e).toInt ∧ (srcK (m ((c : Thread nD τ).loc main_arg1)) e).toInt < 40000) :
    W6 m ρ c (Proc.devRef .tc main_v28)
      = nodeMlp (aggOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)))
        (tr128 (m ((c : Thread nD τ).loc main_arg9))) (row (m ((c : Thread nD τ).loc main_arg10)))
        (tr128 (m ((c : Thread nD τ).loc main_arg11))) (row (m ((c : Thread nD τ).loc main_arg12))) := by
  refine (W6_arr m ρ c 5).trans ?_
  rw [RegionValue.region2_out (V5 m ρ) c]
  show nodeMlp (W5 m ρ c (Proc.devRef .tc main_v27)) (W5 m ρ c (Proc.devRef .tc main_v15)) (W5 m ρ c (Proc.devRef .tc main_v19))
      (W5 m ρ c (Proc.devRef .tc main_v16)) (W5 m ρ c (Proc.devRef .tc main_v20)) = _
  rw [W5_v27_value m ρ c hs, W5_v15, W5_v19, W5_v16, W5_v20]

end Cert.KernelIdeal.Glue

end
-- ==== Proof.RefValue.lean ====
/-
  The reference program's stages, read at `Ideal`, are the block's layers of Proof/Spec.lean: the node layer, the edge
  filter (with the envelope as the reference spells it) and the two output layers over the aggregated messages. The
  reference's weights are stored output-major and transposed by host operations; `tr128`, `tr50`, `row` and `col` are
  those layouts read at an index.
-/
import proofs.«423022_j34797825032818_2_alg».proof.Proof.Gen.ReferenceIdeal.Read
import proofs.«423022_j34797825032818_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.ShloMosaic.StableHlo
open Cert.ReferenceIdeal Cert.ReferenceIdeal.Gen Cert.ReferenceIdeal.Read Cert.CFConv

/-- The reference's node layer `x · lin1ᵀ`. -/
theorem ref_nodeLin (x0 : (⟨S40000x128, .f32⟩ : BufTy).Contents (Elt Ideal)) (x8 : (⟨S128x128, .f32⟩ : BufTy).Contents (Elt Ideal)) :
    val_main_v30 (F := Ideal) x0 x8 = nodeLin x0 (tr128 x8) := by
  funext i
  obtain ⟨p, q, rfl⟩ : ∃ (p : Fin 40000) (q : Fin 128), i = ix2 p q := ⟨i 0, i 1, eq_ix2 i⟩
  rw [val_main_v30_apply]
  unfold nodeLin tr128
  refine Finset.sum_congr rfl fun k _ => ?_
  rw [val_main_v29_apply]
  have e1 : lidx_main_v30 (ix2 p q) k = ix2 p k :=
    funext fun a => Fin.ext (by match a with | ⟨0, _⟩ => rfl | ⟨1, _⟩ => rfl)
  have e2 : idx_main_v29 (ridx_main_v30 (ix2 p q) k) = ix2 q k :=
    funext fun a => Fin.ext (by match a with | ⟨0, _⟩ => rfl | ⟨1, _⟩ => rfl)
  rw [e1, e2]

section Edge

variable (x2 : (⟨S640000, .f32⟩ : BufTy).Contents (Elt Ideal)) (x3 : (⟨S640000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))

/-- The first filter layer before the softplus, on one element: edge `p`'s attributes against row `j` of the
    output-major weights, plus the bias. -/
theorem v17_at (p : Fin 640000) (j : Fin 128) :
    val_main_v17 (F := Ideal) x3 x4 x5 (ix2 p j) = (∑ k : Fin 50, x3 (ix2 p k) * x4 (ix2 j k)) + x5 (ix1 j) := by
  rw [val_main_v17_apply, val_main_v14_apply, val_main_v16_apply, val_main_v15_apply, Ideal.addf_def]
  refine congrArg₂ (· + ·) ?_ ?_
  · refine Finset.sum_congr rfl fun k _ => ?_
    rw [val_main_v13_apply]
    have e1 : lidx_main_v14 (ix2 p j) k = ix2 p k :=
      funext fun a => Fin.ext (by match a with | ⟨0, _⟩ => rfl | ⟨1, _⟩ => rfl)
    have e2 : idx_main_v13 (ridx_main_v14 (ix2 p j) k) = ix2 j k :=
      funext fun a => Fin.ext (by match a with | ⟨0, _⟩ => rfl | ⟨1, _⟩ => rfl)
    rw [e1, e2]
  · have e3 : idx_main_v15 (idx_main_v16 (ix2 p j)) = ix1 j :=
      funext fun a => Fin.ext (by match a with | ⟨0, _⟩ => rfl)
    rw [e3]

/-- The softplus stage minus the ln 2 word is `ssp` of the first layer, element by element. -/
theorem v20_at (j : S640000x128.Idx) :
    val_main_v20 (F := Ideal) x3 x4 x5 j = ssp (val_main_v17 (F := Ideal) x3 x4 x5 j) := by
  rw [val_main_v20_apply, val_main_v18_apply, val_main_call0_v4_apply, val_main_call0_v6_apply,
    val_main_call0_v11_apply, val_main_call0_v1_apply, val_main_call0_v10_apply, val_main_call0_v9_apply,
    val_main_call0_v8_apply, val_main_call0_v7_apply, val_main_call0_v3_apply, val_main_call0_v0_apply,
    val_main_call0_v2_apply, val_main_call0_v5_apply, val_main_call0_cst_apply, val_main_v19_apply,
    val_main_cst_3_apply, Ideal.ofBits_def, Ideal.ofBits_def]
  exact ssp_host_form _

/-- The filter network's row before the envelope, on one element. -/
theorem v25_at (p : Fin 640000) (q : Fin 128) :
    val_main_v25 (F := Ideal) x3 x4 x5 x6 x7 (ix2 p q)
      = (∑ j : Fin 128, ssp ((∑ k : Fin 50, x3 (ix2 p k) * x4 (ix2 j k)) + x5 (ix1 j)) * x6 (ix2 q j)) + x7 (ix1 q) := by
  rw [val_main_v25_apply, val_main_v22_apply, val_main_v24_apply, val_main_v23_apply, Ideal.addf_def]
  refine congrArg₂ (· + ·) ?_ ?_
  · refine Finset.sum_congr rfl fun j _ => ?_
    rw [val_main_v21_apply]
    have e1 : lidx_main_v22 (ix2 p q) j = ix2 p j :=
      funext fun a => Fin.ext (by match a with | ⟨0, _⟩ => rfl | ⟨1, _⟩ => rfl)
    have e2 : idx_main_v21 (ridx_main_v22 (ix2 p q) j) = ix2 q j :=
      funext fun a => Fin.ext (by match a with | ⟨0, _⟩ => rfl | ⟨1, _⟩ => rfl)
    rw [e1, e2, v20_at, v17_at]
  · have e3 : idx_main_v23 (idx_main_v24 (ix2 p q)) = ix1 q :=
      funext fun a => Fin.ext (by match a with | ⟨0, _⟩ => rfl)
    rw [e3]

/-- The envelope broadcast along the 128 columns, on one element: the reference's spelling on edge `p`'s length. -/
theorem v27_at (p : Fin 640000) (q : Fin 128) :
    val_main_v27 (F := Ideal) x2 (ix2 p q) = envR (x2 (ix1 p)) := by
  rw [val_main_v27_apply, val_main_v26_apply]
  have e : idx_main_v26 (idx_main_v27 (ix2 p q)) = ix1 p :=
    funext fun a => Fin.ext (by match a with | ⟨0, _⟩ => rfl)
  rw [e]
  simp only [val_main_v12_apply, val_main_v11_apply, val_main_cst_2_apply, val_main_v10_apply, val_main_v9_apply,
    val_main_cst_1_apply, val_main_v8_apply, val_main_v7_apply, val_main_v6_apply, val_main_cst_0_apply,
    val_main_v5_apply, val_main_v4_apply, val_main_cst_apply, Ideal.mulf_def, Ideal.addf_def, Ideal.hostDivf_def,
    Ideal.hostUnary_cos_def, Ideal.ofBits_def, envR]

end Edge

/-- The reference's edge filter: the filter network's row times the envelope as the reference spells it. -/
theorem ref_edgeFilter (x2 : (⟨S640000, .f32⟩ : BufTy).Contents (Elt Ideal)) (x3 : (⟨S640000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal)) :
    val_main_v28 (F := Ideal) x2 x3 x4 x5 x6 x7
      = edgeFilter x3 (col fun e => envR (x2 e)) (tr50 x4) (row x5) (tr128 x6) (row x7) := by
  funext i
  obtain ⟨p, q, rfl⟩ : ∃ (p : Fin 640000) (q : Fin 128), i = ix2 p q := ⟨i 0, i 1, eq_ix2 i⟩
  rw [val_main_v28_apply, v25_at, v27_at, Ideal.mulf_def]
  unfold edgeFilter edgeMlp tr50 tr128 row col
  rfl

section Node

variable (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal))

/-- The first output layer before the softplus, on one element: node `p`'s aggregated messages against row `j` of the
    output-major weights, plus the bias. -/
theorem v46_at (p : Fin 40000) (j : Fin 128) :
    val_main_v46 (F := Ideal) x0 x1 x2 x3 x4 x5 x6 x7 x8 x9 x10 (ix2 p j)
      = (∑ k : Fin 128, val_main_v41 (F := Ideal) x0 x1 x2 x3 x4 x5 x6 x7 x8 (ix2 p k) * x9 (ix2 j k)) + x10 (ix1 j) := by
  rw [val_main_v46_apply, val_main_v43_apply, val_main_v45_apply, val_main_v44_apply, Ideal.addf_def]
  refine congrArg₂ (· + ·) ?_ ?_
  · refine Finset.sum_congr rfl fun k _ => ?_
    rw [val_main_v42_apply]
    have e1 : lidx_main_v43 (ix2 p j) k = ix2 p k :=
      funext fun a => Fin.ext (by match a with | ⟨0, _⟩ => rfl | ⟨1, _⟩ => rfl)
    have e2 : idx_main_v42 (ridx_main_v43 (ix2 p j) k) = ix2 j k :=
      funext fun a => Fin.ext (by match a with | ⟨0, _⟩ => rfl | ⟨1, _⟩ => rfl)
    rw [e1, e2]
  · have e3 : idx_main_v44 (idx_main_v45 (ix2 p j)) = ix1 j :=
      funext fun a => Fin.ext (by match a with | ⟨0, _⟩ => rfl)
    rw [e3]

/-- The second softplus stage minus the ln 2 word is `ssp` of the first output layer, element by element. -/
theorem v49_at (j : S40000x128.Idx) :
    val_main_v49 (F := Ideal) x0 x1 x2 x3 x4 x5 x6 x7 x8 x9 x10 j
      = ssp (val_main_v46 (F := Ideal) x0 x1 x2 x3 x4 x5 x6 x7 x8 x9 x10 j) := by
  rw [val_main_v49_apply, val_main_v47_apply, val_main_call1_v4_apply, val_main_call1_v6_apply,
    val_main_call1_v11_apply, val_main_call1_v1_apply, val_main_call1_v10_apply, val_main_call1_v9_apply,
    val_main_call1_v8_apply, val_main_call1_v7_apply, val_main_call1_v3_apply, val_main_call1_v0_apply,
    val_main_call1_v2_apply, val_main_call1_v5_apply, val_main_call1_cst_apply, val_main_v48_apply,
    val_main_cst_6_apply, Ideal.ofBits_def, Ideal.ofBits_def]
  exact ssp_host_form _

end Node

/-- The reference's result: the two output layers over its aggregated messages `val_main_v41`. -/
theorem ref_nodeMlp (x0 : (⟨S40000x128, .f32⟩ : BufTy).Contents (Elt Ideal)) (x1 : (⟨S2x640000, .i32⟩ : BufTy).Contents (Elt Ideal))
    (x2 : (⟨S640000, .f32⟩ : BufTy).Contents (Elt Ideal)) (x3 : (⟨S640000x50, .f32⟩ : BufTy).Contents (Elt Ideal))
    (x4 : (⟨S128x50, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 x9 : (⟨S128x128, .f32⟩ : BufTy).Contents (Elt Ideal)) (x10 : (⟨S128, .f32⟩ : BufTy).Contents (Elt Ideal))
    (x11 : (⟨S128x128, .f32⟩ : BufTy).Contents (Elt Ideal)) (x12 : (⟨S128, .f32⟩ : BufTy).Contents (Elt Ideal)) :
    val_main_v54 (F := Ideal) x0 x1 x2 x3 x4 x5 x6 x7 x8 x9 x10 x11 x12
      = nodeMlp (val_main_v41 (F := Ideal) x0 x1 x2 x3 x4 x5 x6 x7 x8) (tr128 x9) (row x10) (tr128 x11) (row x12) := by
  funext i
  obtain ⟨p, q, rfl⟩ : ∃ (p : Fin 40000) (q : Fin 128), i = ix2 p q := ⟨i 0, i 1, eq_ix2 i⟩
  rw [val_main_v54_apply, val_main_v51_apply, val_main_v53_apply, val_main_v52_apply, Ideal.addf_def]
  unfold nodeMlp tr128 row
  refine congrArg₂ (· + ·) ?_ ?_
  · refine Finset.sum_congr rfl fun j _ => ?_
    rw [val_main_v50_apply]
    have e1 : lidx_main_v51 (ix2 p q) j = ix2 p j :=
      funext fun a => Fin.ext (by match a with | ⟨0, _⟩ => rfl | ⟨1, _⟩ => rfl)
    have e2 : idx_main_v50 (ridx_main_v51 (ix2 p q) j) = ix2 q j :=
      funext fun a => Fin.ext (by match a with | ⟨0, _⟩ => rfl | ⟨1, _⟩ => rfl)
    rw [e1, e2, v49_at, v46_at]
  · have e3 : idx_main_v52 (idx_main_v53 (ix2 p q)) = ix1 q :=
      funext fun a => Fin.ext (by match a with | ⟨0, _⟩ => rfl)
    rw [e3]

end Cert.ReferenceIdeal.RefValue

end
-- ==== Proof.Envelope.lean ====
/-
  The cosine envelope's two spellings agree on every real edge length. The kernel multiplies the length by the word
  0x3EA0D97C, which is the number 10541436 / 2^25; the reference multiplies by the word of π, 13176795 / 2^22, and then
  divides by ten. 13176795 is divisible by five, so (13176795 / 2^22) / 10 = 2635359 / 2^23 = 10541436 / 2^25 exactly:
  on a real length the two arguments of the cosine are one number.
-/
import proofs.«423022_j34797825032818_2_alg».proof.Proof.Spec

noncomputable section

namespace Cert.CFConv

open Idealize.ShloMosaic

/-- The kernel's scale word: 10541436 / 2^25. -/
theorem word_scale : Ideal.ofBits .f32 0x3EA0D97C#32 = ((10541436 / 2 ^ 25 : ℝ) : EReal) := by
  simp [Ideal.ofBits, Ideal.ieee, -EReal.coe_mul]; norm_num

/-- The reference's word of π: 13176795 / 2^22. -/
theorem word_pi : Ideal.ofBits .f32 0x40490FDB#32 = ((13176795 / 2 ^ 22 : ℝ) : EReal) := by
  simp [Ideal.ofBits, Ideal.ieee, -EReal.coe_mul]; norm_num

/-- The reference's divisor: ten. -/
theorem word_ten : Ideal.ofBits .f32 0x41200000#32 = ((10 : ℝ) : EReal) := by
  simp [Ideal.ofBits, Ideal.ieee, -EReal.coe_mul]; norm_num

/-- On a real edge length the reference's envelope is the kernel's. -/
theorem envR_eq_envK (r : ℝ) : envR (r : EReal) = envK (r : EReal) := by
  unfold envR envK
  rw [word_pi, word_ten, word_scale, Ideal.div_coe (by norm_num : (10 : ℝ) ≠ 0)]
  have e : ((r : EReal) * ((13176795 / 2 ^ 22 : ℝ) : EReal)) * ((1 / 10 : ℝ) : EReal) = (r : EReal) * ((10541436 / 2 ^ 25 : ℝ) : EReal) := by
    rw [← EReal.coe_mul, ← EReal.coe_mul, ← EReal.coe_mul]
    congr 1
    ring
  rw [e]

end Cert.CFConv

end
-- ==== Proof.Bridge.lean ====
/-
  The reference's aggregated messages are the kernel's: the same gather at the wrapped source indices, the same product
  with the edge filter, the same scatter-add at the target indices — of a node layer and an edge filter that are the
  specification's on both sides, once the envelope's two spellings are identified on real edge lengths.
-/
import proofs.«423022_j34797825032818_2_alg».proof.Proof.RefValue
import proofs.«423022_j34797825032818_2_alg».proof.Proof.HostGlue
import proofs.«423022_j34797825032818_2_alg».proof.Proof.Envelope

set_option maxRecDepth 16384

noncomputable section

namespace Cert.Bridge

open Idealize.ShloMosaic Idealize.ShloMosaic.TcCoe Idealize.ShloMosaic.ValueIdx
open Cert.CFConv

/-- With every edge length a real number, the reference's aggregated messages `val_main_v41` are `aggOf` of the same arguments. -/
theorem ref_agg (x0 : FVec Ideal Cert.KernelIdeal.S40000x128 .f32) (x1 : IVec Cert.KernelIdeal.S2x640000 32)
    (x2 : FVec Ideal Cert.KernelIdeal.S640000 .f32) (x3 : FVec Ideal Cert.KernelIdeal.S640000x50 .f32)
    (x4 : FVec Ideal Cert.KernelIdeal.S128x50 .f32) (x5 : FVec Ideal Cert.KernelIdeal.S128 .f32)
    (x6 : FVec Ideal Cert.KernelIdeal.S128x128 .f32) (x7 : FVec Ideal Cert.KernelIdeal.S128 .f32)
    (x8 : FVec Ideal Cert.KernelIdeal.S128x128 .f32)
    (hfin : ∀ e : Cert.KernelIdeal.S640000.Idx, ∃ r : ℝ, x2 e = (r : EReal)) :
    Cert.ReferenceIdeal.Read.val_main_v41 (F := Ideal) x0 x1 x2 x3 x4 x5 x6 x7 x8
      = Cert.KernelIdeal.Glue.aggOf x0 x1 x2 x3 x4 x5 x6 x7 x8 := by
  have henv : (fun e => envR (x2 e)) = fun e => envK (x2 e) := funext fun e => by
    obtain ⟨r, hr⟩ := hfin e
    rw [hr]
    exact envR_eq_envK r
  unfold Cert.ReferenceIdeal.Read.val_main_v41 Cert.ReferenceIdeal.Read.val_main_v38 Cert.ReferenceIdeal.Read.val_main_v37
  rw [Cert.ReferenceIdeal.RefValue.ref_nodeLin, Cert.ReferenceIdeal.RefValue.ref_edgeFilter, henv]
  rfl

end Cert.Bridge

end
-- ==== Proof.Pre.lean ====
/-
  What the precondition says of the two inputs the proof needs it for: every edge length is a finite number (the
  envelope's two spellings agree on the reals), and every source-node index is a valid row index of the 40000 node rows.
-/
import proofs.«423022_j34797825032818_2_alg».proof.Defs
import proofs.«423022_j34797825032818_2_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

namespace Cert.PreFacts

open Idealize.ShloMosaic Idealize.ShloMosaic.TcCoe Idealize.ShloMosaic.ValueIdx
open Cert.Pre_finite_inputs.Facts

/-- The source-node indices: row 0 of the edge index array, as a vector. -/
def srcOf (x1 : IVec Cert.Pre_finite_inputs.S2x640000 32) : IVec Cert.Pre_finite_inputs.S640000 32 :=
  shapeCast Cert.Pre_finite_inputs.S640000
    (extractStridedSlice Cert.Pre_finite_inputs.S1x640000 ![0, 0] x1 slices_S2x640000_S1x640000_0_0)
    shapeCasts_S1x640000_S640000

/-- The scalar shape has one index. -/
instance subsingleton_S_ : Subsingleton Cert.Pre_finite_inputs.S_.Idx := ⟨fun a b => funext fun d => d.elim0⟩

/-- A conjunction of two one-bit arrays is 1 at an index exactly when both are. -/
theorem andi_apply_eq_one {s : Shape} (a b : IVec s 1) (i : s.Idx) : andi a b i = 1#1 ↔ a i = 1#1 ∧ b i = 1#1 :=
  IntOp.andi_eq_one

/-- An extended real whose absolute value max(x, −x) lies strictly below +∞ (the word 0x7F800000) is neither infinity:
    it is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    have := (StableHlo.Predicate.ofBool_eq_one_iff _).1 h
    simpa using this
  induction x using EReal.rec with
  | bot => simp at hlt
  | top => simp at hlt
  | coe r => exact ⟨r, rfl⟩

/-- Signed comparisons of a 32-bit word against the two printed bounds, read as integer inequalities. -/
theorem range_of_cmpi (w : BitVec 32) (hge : IntOp.cmpi .sge w 4294927296#32 = 1#1) (hlt : IntOp.cmpi .slt w 40000#32 = 1#1) :
    -40000 ≤ w.toInt ∧ w.toInt < 40000 := by
  unfold IntOp.cmpi at hge hlt
  rw [StableHlo.Predicate.ofBool_eq_one_iff] at hge hlt
  have h1 : (4294927296#32 : BitVec 32).toInt = -40000 := by decide
  have h2 : (40000#32 : BitVec 32).toInt = 40000 := by decide
  have hge' := BitVec.sle_iff_toInt_le.1 hge
  have hlt' := BitVec.slt_iff_toInt_lt.1 hlt
  rw [h1] at hge'
  rw [h2] at hlt'
  exact ⟨hge', hlt'⟩

/-- The precondition, decoded into the two of its thirteen conjuncts the proof uses: |edge length| < +∞ everywhere, and
    −40000 ≤ source index < 40000 everywhere (both as one-bit arrays that are 1 at every index). -/
theorem blocks
    (m : (ℓ : Loc Cert.KernelIdeal.nD Cert.KernelIdeal.τ Cert.KernelIdeal.sig) → Buf (Elt Ideal) ℓ)
    (h : Cert.Pre_KernelIdeal m) (c : Dev Cert.KernelIdeal.nD) (e : Cert.Pre_finite_inputs.S640000.Idx) :
    cmpf .olt (Host.absf (m ((c.tc : Thread Cert.KernelIdeal.nD Cert.KernelIdeal.τ).loc Cert.KernelIdeal.main_arg2)))
        (broadcastInDim Cert.Pre_finite_inputs.S640000 ![] bcast_S_S640000
          (constant (F := Ideal) Cert.Pre_finite_inputs.S_ .f32 0x7F800000#32)) e = 1#1
    ∧ andi
        (cmpi .sge (srcOf (m ((c.tc : Thread Cert.KernelIdeal.nD Cert.KernelIdeal.τ).loc Cert.KernelIdeal.main_arg1)))
          (broadcastInDim Cert.Pre_finite_inputs.S640000 ![] bcast_S_S640000 (constantI Cert.Pre_finite_inputs.S_ 32 4294927296#32)))
        (cmpi .slt (srcOf (m ((c.tc : Thread Cert.KernelIdeal.nD Cert.KernelIdeal.τ).loc Cert.KernelIdeal.main_arg1)))
          (broadcastInDim Cert.Pre_finite_inputs.S640000 ![] bcast_S_S640000 (constantI Cert.Pre_finite_inputs.S_ 32 40000#32))) e = 1#1 := by
  have e0 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e0
  simp only [andi_apply_eq_one] at e0
  obtain ⟨⟨⟨⟨⟨⟨⟨⟨⟨⟨⟨⟨-, hw⟩, -⟩, -⟩, -⟩, -⟩, -⟩, -⟩, -⟩, -⟩, -⟩, -⟩, hs⟩ := e0
  exact ⟨Host.reduce_andi_all _ _ _ _ _ hw e, Host.reduce_andi_all _ _ _ _ _ hs e⟩

/-- Under the precondition every edge length is a real number. -/
theorem finite_edge_weight
    (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S640000.Idx) :
    ∃ r : ℝ, m ((c.tc : Thread Cert.KernelIdeal.nD Cert.KernelIdeal.τ).loc Cert.KernelIdeal.main_arg2) e = (r : EReal) :=
  real_of_abs_lt_inf _ (blocks m h c e).1

/-- Under the precondition every source-node index is a valid row index: −40000 ≤ i < 40000. -/
theorem src_in_range
    (m : (ℓ : Loc Cert.KernelIdeal.nD Cert.KernelIdeal.τ Cert.KernelIdeal.sig) → Buf (Elt Ideal) ℓ)
    (h : Cert.Pre_KernelIdeal m) (c : Dev Cert.KernelIdeal.nD) (e : Cert.KernelIdeal.S640000.Idx) :
    -40000 ≤ (srcOf (m ((c.tc : Thread Cert.KernelIdeal.nD Cert.KernelIdeal.τ).loc Cert.KernelIdeal.main_arg1)) e).toInt
      ∧ (srcOf (m ((c.tc : Thread Cert.KernelIdeal.nD Cert.KernelIdeal.τ).loc Cert.KernelIdeal.main_arg1)) e).toInt < 40000 := by
  obtain ⟨hge, hlt⟩ := (andi_apply_eq_one _ _ _).1 (blocks m h c e).2
  exact range_of_cmpi _ hge hlt

end Cert.PreFacts

end
-- ==== Proof.lean ====
/-
  The certificate of a continuous-filter convolution block (40000 nodes, 640000 edges, 128 features) against its jnp
  reference, over the extended reals.

  Both programs compute  out = ssp(agg · lin2ᵀ + b) · linᵀ + lb  with  agg = Σ_{e : dst e = n} h[src e] ⊙ W[e],
  h = x · lin1ᵀ,  W = (ssp(ea · w1ᵀ + b1) · w2ᵀ + b2) ⊙ C,  C e = ½ (cos(ew e · π/10) + 1)  and ssp the shifted softplus
  (Proof/Spec.lean). The kernel computes h, W and out in three launches whose row blocks tile the arrays (Proof/Region0,
  Region1, Region2: each output array is the layer of the arrays the launch finds), with the gather, the product and the
  scatter-add between them on the host (Proof/HostGlue.lean walks every buffer a launch reads back to the arguments); the
  reference is one host program, read stage by stage (Proof/RefValue.lean). Two things differ between the two and are
  settled by the precondition (Proof/Pre.lean): the kernel multiplies an edge length by the word of π/10 where the
  reference multiplies by the word of π and divides by ten — one rational number, 10541436/2^25, so the envelopes agree on
  real lengths (Proof/Envelope.lean) —, and the kernel's row gather fills rows whose index is out of range where the
  reference's clamps them — with every source index a valid row index (−40000 ≤ i < 40000) neither happens
  (Proof/Take.lean). The aggregated messages are then one term on both sides (Proof/Bridge.lean).
-/
import proofs.«423022_j34797825032818_2_alg».proof.Defs
import proofs.«423022_j34797825032818_2_alg».proof.Proof.Gen.Kernel
import proofs.«423022_j34797825032818_2_alg».proof.Proof.Gen.Kernel.Frame
import proofs.«423022_j34797825032818_2_alg».proof.Proof.Gen.KernelIdeal
import proofs.«423022_j34797825032818_2_alg».proof.Proof.Gen.KernelIdeal.Frame
import proofs.«423022_j34797825032818_2_alg».proof.Proof.Gen.ReferenceIdeal
import proofs.«423022_j34797825032818_2_alg».proof.Proof.Gen.Pre_finite_inputs
import proofs.«423022_j34797825032818_2_alg».proof.Proof.Gen.ReferenceIdeal.Run
import proofs.«423022_j34797825032818_2_alg».proof.Proof.Gen.ReferenceIdeal.Read
import proofs.«423022_j34797825032818_2_alg».proof.Proof.KernelRun
import proofs.«423022_j34797825032818_2_alg».proof.Proof.HostGlue
import proofs.«423022_j34797825032818_2_alg».proof.Proof.RefValue
import proofs.«423022_j34797825032818_2_alg».proof.Proof.Bridge
import proofs.«423022_j34797825032818_2_alg».proof.Proof.Pre
import Idealize.ShloMosaic.Adequacy
import Idealize.ShloMosaic.Init

noncomputable section

namespace Cert.Proof

open Idealize.ShloMosaic Idealize.SL.Sem Cert.CFConv

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- Both programs end with the two output layers over the aggregated messages of the arguments. -/
theorem algebraic : Cert.algebraic_KernelIdeal_ReferenceIdeal := by
  intro m ρ m' ρ' hpre hagree
  refine ⟨fun c => nodeMlp (Cert.KernelIdeal.Glue.aggOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)))
      (tr128 (m ((c.tc : Thread Cert.KernelIdeal.nD Cert.KernelIdeal.τ).loc Cert.KernelIdeal.main_arg9))) (row (m ((c.tc : Thread Cert.KernelIdeal.nD Cert.KernelIdeal.τ).loc Cert.KernelIdeal.main_arg10))) (tr128 (m ((c.tc : Thread Cert.KernelIdeal.nD Cert.KernelIdeal.τ).loc Cert.KernelIdeal.main_arg11))) (row (m ((c.tc : Thread Cert.KernelIdeal.nD Cert.KernelIdeal.τ).loc Cert.KernelIdeal.main_arg12))), ?_, ?_⟩
  · exact (θ_run Cert.KernelIdeal.defs _ _).mono
      (fun r h c => ⟨(h c).1.trans (Cert.KernelIdeal.Glue.result_value m ρ c (fun e => Cert.PreFacts.src_in_range m hpre c e)), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.Read.val_main_v54_eq, a0, a1, a2, a3, a4, a5, a6, a7, a8, a9, a10, a11, a12,
      Cert.ReferenceIdeal.RefValue.ref_nodeMlp]
    rw [Cert.Bridge.ref_agg _ _ _ _ _ _ _ _ _ (fun e => Cert.PreFacts.finite_edge_weight m hpre c e)]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
